-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000 : Shape := ⟨2, ![8, 100000]⟩
abbrev S2x3200000 : Shape := ⟨2, ![2, 3200000]⟩
abbrev S3200000x2 : Shape := ⟨2, ![3200000, 2]⟩
abbrev S16 : Shape := ⟨1, ![16]⟩
abbrev S_ : Shape := ⟨0, ![]⟩

class Facts : Prop where
  bcast_S_S8x100000 : S_.BroadcastsInDim S8x100000 (![] : Fin 0 → Fin S8x100000.rank)
  reducesTo_S8x100000_S_d0_1 : S8x100000.ReducesTo [0, 1] S_
  h_S_ : 0 < S_.numel
  bcast_S_S3200000x2 : S_.BroadcastsInDim S3200000x2 (![] : Fin 0 → Fin S3200000x2.rank)
  reducesTo_S3200000x2_S_d0_1 : S3200000x2.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg2 : IVec S2x3200000 32) (main_v13 : IVec S_ 1) (main_v15 : IVec S2x3200000 1) (main_c_5 : IVec S_ 1) : IVec S_ 1 :=
  let main_v16 : IVec S_ 1 := (fun x v => Host.reduce IntOp.andi x v reducesTo_S2x3200000_S_d0_1 h_S_) main_v15 main_c_5
  let main_v17 : IVec S_ 1 := andi main_v13 main_v16
  let main_c_6 : IVec S_ 32 := constantI S_ 32 100000#32
  let main_v18 : IVec S2x3200000 32 := broadcastInDim S2x3200000 ![] bcast_S_S2x3200000 main_c_6
  let main_v19 : IVec S2x3200000 1 := cmpi .slt main_arg2 main_v18
  let main_c_7 : IVec S_ 1 := constantI S_ 1 1#1
  let main_v20 : IVec S_ 1 := (fun x v => Host.reduce IntOp.andi x v reducesTo_S2x3200000_S_d0_1 h_S_) main_v19 main_c_7
  let main_v21 : IVec S_ 1 := andi main_v17 main_v20
  main_v21

def fn {F : FTy → Type} [FloatOps F] (main_arg0 : FVec F S8x100000 .f32) (main_arg1 : FVec F S8x100000 .f32) (main_arg2 : IVec S2x3200000 32) (main_arg3 : FVec F S3200000x2 .f32) (main_arg4 : IVec S16 32) : IVec S_ 1 :=
  let main_v0 : FVec F S8x100000 .f32 := Host.absf main_arg0
  let main_cst : FVec F S_ .f32 := constant S_ .f32 0x7F800000#32
  let main_v1 : FVec F S8x100000 .f32 := broadcastInDim S8x100000 ![] bcast_S_S8x100000 main_cst
  let main_v2 : IVec S8x100000 1 := cmpf .olt main_v0 main_v1
  let main_c : IVec S_ 1 := constantI S_ 1 1#1
  let main_v3 : IVec S_ 1 := (fun x v => Host.reduce IntOp.andi x v reducesTo_S8x100000_S_d0_1 h_S_) main_v2 main_c
  let main_v4 : FVec F S8x100000 .f32 := Host.absf main_arg1
  let main_cst_0 : FVec F S_ .f32 := constant S_ .f32 0x7F800000#32
  let main_v5 : FVec F S8x100000 .f32 := broadcastInDim S8x100000 ![] bcast_S_S8x100000 main_cst_0
  let main_v6 : IVec S8x100000 1 := cmpf .olt main_v4 main_v5
  let main_c_1 : IVec S_ 1 := constantI S_ 1 1#1
  let main_v7 : IVec S_ 1 := (fun x v => Host.reduce IntOp.andi x v reducesTo_S8x100000_S_d0_1 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  let main_c_4 : IVec S_ 32 := constantI S_ 32 0#32
  let main_v14 : IVec S2x3200000 32 := broadcastInDim S2x3200000 ![] bcast_S_S2x3200000 main_c_4
  let main_v15 : IVec S2x3200000 1 := cmpi .sge main_arg2 main_v14
  let main_c_5 : IVec S_ 1 := constantI S_ 1 1#1
  fn_part1 (F := F) main_arg2 main_v13 main_v15 main_c_5
-- ==== Kernel.lean ====
abbrev S8x100000 : Shape := ⟨2, ![8, 100000]⟩
abbrev S2x3200000 : Shape := ⟨2, ![2, 3200000]⟩
abbrev S3200000x2 : Shape := ⟨2, ![3200000, 2]⟩
abbrev S16 : Shape := ⟨1, ![16]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S1 : Shape := ⟨1, ![1]⟩
abbrev S1x1 : Shape := ⟨2, ![1, 1]⟩
abbrev S8x3200000 : Shape := ⟨2, ![8, 3200000]⟩
abbrev S8x160000 : Shape := ⟨2, ![8, 160000]⟩
abbrev S1x160000 : Shape := ⟨2, ![1, 160000]⟩
abbrev S16x1 : Shape := ⟨2, ![16, 1]⟩
abbrev S8x16 : Shape := ⟨2, ![8, 16]⟩

abbrev nBuf : Space → Nat
  | .hbm => 106
  | .vmem => 8
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S2x3200000, .i32⟩
  | .hbm, ⟨3, _⟩ => ⟨S3200000x2, .f32⟩
  | .hbm, ⟨4, _⟩ => ⟨S16, .i32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S3200000x1, .f32⟩
  | .hbm, ⟨10, _⟩ => ⟨S3200000, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S1, .i32⟩
  | .hbm, ⟨20, _⟩ => ⟨S_, .i32⟩
  | .hbm, ⟨21, _⟩ => ⟨S3200000x1, .i32⟩
  | .hbm, ⟨22, _⟩ => ⟨S3200000x1, .i1⟩
  | .hbm, ⟨23, _⟩ => ⟨S1x1, .i32⟩
  | .hbm, ⟨24, _⟩ => ⟨S3200000x1, .i32⟩
  | .hbm, ⟨25, _⟩ => ⟨S3200000x1, .i1⟩
  | .hbm, ⟨26, _⟩ => ⟨S3200000x1, .i1⟩
  | .hbm, ⟨27, _⟩ => ⟨S_, .i1⟩
  | .hbm, ⟨28, _⟩ => ⟨S3200000, .i1⟩
  | .hbm, ⟨29, _⟩ => ⟨S8x3200000, .f32⟩
  | .hbm, ⟨30, _⟩ => ⟨S8x3200000, .i1⟩
  | .hbm, ⟨31, _⟩ => ⟨S_, .f32⟩
  | .hbm, ⟨32, _⟩ => ⟨S8x3200000, .f32⟩
  | .hbm, ⟨33, _⟩ => ⟨S8x3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S1, .i32⟩
  | .hbm, ⟨43, _⟩ => ⟨S_, .i32⟩
  | .hbm, ⟨44, _⟩ => ⟨S3200000x1, .i32⟩
  | .hbm, ⟨45, _⟩ => ⟨S3200000x1, .i1⟩
  | .hbm, ⟨46, _⟩ => ⟨S1x1, .i32⟩
  | .hbm, ⟨47, _⟩ => ⟨S3200000x1, .i32⟩
  | .hbm, ⟨48, _⟩ => ⟨S3200000x1, .i1⟩
  | .hbm, ⟨49, _⟩ => ⟨S3200000x1, .i1⟩
  | .hbm, ⟨50, _⟩ => ⟨S_, .i1⟩
  | .hbm, ⟨51, _⟩ => ⟨S3200000, .i1⟩
  | .hbm, ⟨52, _⟩ => ⟨S8x3200000, .f32⟩
  | .hbm, ⟨53, _⟩ => ⟨S8x3200000, .i1⟩
  | .hbm, ⟨54, _⟩ => ⟨S_, .f32⟩
  | .hbm, ⟨55, _⟩ => ⟨S8x3200000, .f32⟩
  | .hbm, ⟨56, _⟩ => ⟨S8x3200000, .f32⟩
  | .hbm, ⟨57, _⟩ => ⟨S1x3200000, .f32⟩
  | .hbm, ⟨58, _⟩ => ⟨S8x3200000, .f32⟩
  | .hbm, ⟨59, _⟩ => ⟨S_, .f32⟩
  | .hbm, ⟨60, _⟩ => ⟨S8x100000, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S8x100000, .f32⟩
  | .hbm, ⟨70, _⟩ => ⟨S8x3200000, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S8x100000, .f32⟩
  | .hbm, ⟨80, _⟩ => ⟨S8x100000, .f32⟩
  | .hbm, ⟨81, _⟩ => ⟨S8x100000, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .i32⟩
  | .hbm, ⟨87, _⟩ => ⟨S16, .i32⟩
  | .hbm, ⟨88, _⟩ => ⟨S16, .i1⟩
  | .hbm, ⟨89, _⟩ => ⟨S_, .i32⟩
  | .hbm, ⟨90, _⟩ => ⟨S16, .i32⟩
  | .hbm, ⟨91, _⟩ => ⟨S16, .i32⟩
  | .hbm, ⟨92, _⟩ => ⟨S16, .i32⟩
  | .hbm, ⟨93, _⟩ => ⟨S16x1, .i32⟩
  | .hbm, ⟨94, _⟩ => ⟨S8x16, .f32⟩
  | .hbm, ⟨95, _⟩ => ⟨S_, .f32⟩
  | .hbm, ⟨96, _⟩ => ⟨S8x16, .f32⟩
  | .hbm, ⟨97, _⟩ => ⟨S8x16, .f32⟩
  | .hbm, ⟨98, _⟩ => ⟨S8x16, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S8x160000, .f32⟩
  | .local _ .vmem, ⟨1, _⟩ => ⟨S8x160000, .f32⟩
  | .local _ .vmem, ⟨2, _⟩ => ⟨S8x160000, .f32⟩
  | .local _ .vmem, ⟨3, _⟩ => ⟨S8x160000, .f32⟩
  | .local _ .vmem, ⟨4, _⟩ => ⟨S1x160000, .f32⟩
  | .local _ .vmem, ⟨5, _⟩ => ⟨S1x160000, .f32⟩
  | .local _ .vmem, ⟨6, _⟩ => ⟨S8x160000, .f32⟩
  | .local _ .vmem, ⟨7, _⟩ => ⟨S8x160000, .f32⟩
  | _, _ => ⟨S8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_c : Ref sig .tc := ⟨.hbm, 61, rfl⟩
abbrev main_v11 : Ref sig .tc := ⟨.hbm, 62, rfl⟩
abbrev main_v12 : Ref sig .tc := ⟨.hbm, 63, rfl⟩
abbrev main_c_0 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_c_1 : Ref sig .tc := ⟨.hbm, 71, rfl⟩
abbrev main_v19 : Ref sig .tc := ⟨.hbm, 72, rfl⟩
abbrev main_v20 : Ref sig .tc := ⟨.hbm, 73, rfl⟩
abbrev main_c_2 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_3 : Ref sig .tc := ⟨.hbm, 82, rfl⟩
abbrev main_v28 : Ref sig .tc := ⟨.hbm, 83, rfl⟩
abbrev main_cst_4 : Ref sig .tc := ⟨.hbm, 84, rfl⟩
abbrev main_v29 : Ref sig .tc := ⟨.hbm, 85, rfl⟩
abbrev main_c_5 : Ref sig .tc := ⟨.hbm, 86, rfl⟩
abbrev main_v30 : Ref sig .tc := ⟨.hbm, 87, rfl⟩
abbrev main_v31 : Ref sig .tc := ⟨.hbm, 88, rfl⟩
abbrev main_c_6 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_7 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_8 : Ref sig .tc := ⟨.hbm, 99, rfl⟩
abbrev main_v40 : Ref sig .tc := ⟨.hbm, 100, rfl⟩
abbrev main_cst_9 : Ref sig .tc := ⟨.hbm, 101, rfl⟩
abbrev main_v41 : Ref sig .tc := ⟨.hbm, 102, rfl⟩
abbrev main_v42 : Ref sig .tc := ⟨.hbm, 103, rfl⟩
abbrev main_cst_10 : Ref sig .tc := ⟨.hbm, 104, rfl⟩
abbrev main_v43 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x160000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x2_S3200000x1_0_0 : S3200000x2.Slices ![0, 0] S3200000x1
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S8x3200000_1 : S3200000.BroadcastsInDim S8x3200000 (![1] : Fin 1 → Fin S8x3200000.rank)
  bcast_S_S8x3200000 : S_.BroadcastsInDim S8x3200000 (![] : Fin 0 → Fin S8x3200000.rank)
  shapeCasts_S3200000_S1x3200000 : S3200000.ShapeCasts S1x3200000
  inb_S1x160000_S1x160000_0_0 : ∀ a, (![0, 0] : Fin 2 → Nat) a + S1x160000.size a ≤ S1x160000.size a
  h_S1x160000 : 0 < S1x160000.numel
  shapeCasts_S1x160000_S1x160000 : S1x160000.ShapeCasts S1x160000
  inb_S8x160000_S8x160000_0_0 : ∀ a, (![0, 0] : Fin 2 → Nat) a + S8x160000.size a ≤ S8x160000.size a
  h_S8x160000 : 0 < S8x160000.numel
  shapeCasts_S8x160000_S8x160000 : S8x160000.ShapeCasts S8x160000
  broadcasts_S1x160000_S8x160000 : S1x160000.Broadcasts S8x160000
  bcast_S_S8x100000 : S_.BroadcastsInDim S8x100000 (![] : Fin 0 → Fin S8x100000.rank)
  reducesTo_S8x100000_S_d0_1 : S8x100000.ReducesTo [0, 1] S_
  bcast_S_S16 : S_.BroadcastsInDim S16 (![] : Fin 0 → Fin S16.rank)
  bcast_S16_S16x1_0 : S16.BroadcastsInDim S16x1 (![0] : Fin 1 → Fin S16x1.rank)
  bcast_S_S8x16 : S_.BroadcastsInDim S8x16 (![] : Fin 0 → Fin S8x16.rank)
  reducesTo_S8x16_S_d0_1 : S8x16.ReducesTo [0, 1] S_
  gather_S8x100000_S3200000x1_S8x3200000_0_1_n_n_1_1_81_wf : GatherDims.WF S8x100000 S3200000x1 S8x3200000 [0] [1] [] [1] [] 1 ![8, 1]
  scatter_S8x100000_S3200000x1_S8x3200000_0_1_1_1_wf : ScatterDims.WF S8x100000 S3200000x1 S8x3200000 [0] [1] [1] 1
  gather_S8x100000_S16x1_S8x16_0_1_n_n_1_1_81_wf : GatherDims.WF S8x100000 S16x1 S8x16 [0] [1] [] [1] [] 1 ![8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x160000.size a ≤ S8x3200000.size a
  hwx0_0 : ∀ i : grid0.Coords, EltTy.bits .f32 = 32 ∨ (Rect.block (s := S8x3200000) S8x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x160000.size a ≤ S8x3200000.size a
  hwx0_1 : ∀ i : grid0.Coords, EltTy.bits .f32 = 32 ∨ (Rect.block (s := S8x3200000) S8x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x3200000.size a
  hwx0_2 : ∀ i : grid0.Coords, EltTy.bits .f32 = 32 ∨ (Rect.block (s := S1x3200000) S1x160000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x160000.size a ≤ S8x3200000.size a
  hwx0_3 : ∀ i : grid0.Coords, EltTy.bits .f32 = 32 ∨ (Rect.block (s := S8x3200000) S8x160000.size (cc0_transform_3 i) (hinb0_3 i)).WholeWords (EltTy.packing .f32)

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S8x100000_S3200000x1_S8x3200000_0_1_1_1 : ScatterDims S8x100000 S3200000x1 S8x3200000 where
  updateWindowDims := [0]
  insertedWindowDims := [1]
  scatterDimsToOperandDims := [1]
  indexVectorDim := 1
  wf := scatter_S8x100000_S3200000x1_S8x3200000_0_1_1_1_wf
def gather_S8x100000_S16x1_S8x16_0_1_n_n_1_1_81 : GatherDims S8x100000 S16x1 S8x16 where
  offsetDims := [0]
  collapsedSliceDims := [1]
  operandBatchingDims := []
  startIndicesBatchingDims := []
  startIndexMap := [1]
  indexVectorDim := 1
  sliceSizes := ![8, 1]
  wf := gather_S8x100000_S16x1_S8x16_0_1_n_n_1_1_81_wf

abbrev win0_0 : Pipeline.Window sig grid0 :=
  Pipeline.Window.ofSpec (Memref.whole main_v6) S8x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x160000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x160000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x100000 : Shape := ⟨2, ![8, 100000]⟩
abbrev S2x3200000 : Shape := ⟨2, ![2, 3200000]⟩
abbrev S3200000x2 : Shape := ⟨2, ![3200000, 2]⟩
abbrev S16 : Shape := ⟨1, ![16]⟩
abbrev S1x3200000 : Shape := ⟨2, ![1, 3200000]⟩
abbrev S3200000 : Shape := ⟨1, ![3200000]⟩
abbrev S3200000x1 : Shape := ⟨2, ![3200000, 1]⟩
abbrev S_ : Shape := ⟨0, ![]⟩
abbrev S8x3200000 : Shape := ⟨2, ![8, 3200000]⟩
abbrev S3200000x8 : Shape := ⟨2, ![3200000, 8]⟩
abbrev S100000x8 : Shape := ⟨2, ![100000, 8]⟩
abbrev S16x1 : Shape := ⟨2, ![16, 1]⟩
abbrev S8x16 : Shape := ⟨2, ![8, 16]⟩

abbrev nBuf : Space → Nat
  | .hbm => 70
  | .vmem => 0
  | .smem => 0
  | _ => 0

abbrev bufTy : (tb : Table) → Fin (tcTables nBuf tb) → BufTy
  | .hbm, ⟨0, _⟩ => ⟨S8x100000, .f32⟩
  | .hbm, ⟨1, _⟩ => ⟨S8x100000, .f32⟩
  | .hbm, ⟨2, _⟩ => ⟨S2x3200000, .i32⟩
  | .hbm, ⟨3, _⟩ => ⟨S3200000x2, .f32⟩
  | .hbm, ⟨4, _⟩ => ⟨S16, .i32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S3200000x1, .f32⟩
  | .hbm, ⟨10, _⟩ => ⟨S3200000, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S8x3200000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S8x3200000, .f32⟩
  | .hbm, ⟨29, _⟩ => ⟨S8x3200000, .f32⟩
  | .hbm, ⟨30, _⟩ => ⟨S1x3200000, .f32⟩
  | .hbm, ⟨31, _⟩ => ⟨S8x3200000, .f32⟩
  | .hbm, ⟨32, _⟩ => ⟨S8x3200000, .f32⟩
  | .hbm, ⟨33, _⟩ => ⟨S3200000x8, .f32⟩
  | .hbm, ⟨34, _⟩ => ⟨S_, .f32⟩
  | .hbm, ⟨35, _⟩ => ⟨S100000x8, .f32⟩
  | .hbm, ⟨36, _⟩ => ⟨S3200000x1, .i32⟩
  | .hbm, ⟨37, _⟩ => ⟨S100000x8, .f32⟩
  | .hbm, ⟨38, _⟩ => ⟨S_, .f32⟩
  | .hbm, ⟨39, _⟩ => ⟨S100000x8, .f32⟩
  | .hbm, ⟨40, _⟩ => ⟨S3200000x1, .i32⟩
  | .hbm, ⟨41, _⟩ => ⟨S100000x8, .f32⟩
  | .hbm, ⟨42, _⟩ => ⟨S100000x8, .f32⟩
  | .hbm, ⟨43, _⟩ => ⟨S8x100000, .f32⟩
  | .hbm, ⟨44, _⟩ => ⟨S8x100000, .f32⟩
  | .hbm, ⟨45, _⟩ => ⟨S8x100000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S16x1, .i32⟩
  | .hbm, ⟨58, _⟩ => ⟨S8x16, .f32⟩
  | .hbm, ⟨59, _⟩ => ⟨S_, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S3200000x2_S3200000x1_0_0 : S3200000x2.Slices ![0, 0] S3200000x1
  shapeCasts_S3200000x1_S3200000 : S3200000x1.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000_S1x3200000_1 : S3200000.BroadcastsInDim S1x3200000 (![1] : Fin 1 → Fin S1x3200000.rank)
  bcast_S1x3200000_S8x3200000_0_1 : S1x3200000.BroadcastsInDim S8x3200000 (![0, 1] : Fin 2 → Fin S8x3200000.rank)
  transposes_S8x3200000_S3200000x8_1_0 : S8x3200000.Transposes [1, 0] S3200000x8
  bcast_S_S100000x8 : S_.BroadcastsInDim S100000x8 (![] : Fin 0 → Fin S100000x8.rank)
  transposes_S100000x8_S8x100000_1_0 : S100000x8.Transposes [1, 0] S8x100000
  reducesTo_S8x100000_S_d0_1 : S8x100000.ReducesTo [0, 1] S_
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S_S8x16 : S_.BroadcastsInDim S8x16 (![] : Fin 0 → Fin S8x16.rank)
  reducesTo_S8x16_S_d0_1 : S8x16.ReducesTo [0, 1] S_
  gather_S8x100000_S3200000x1_S8x3200000_0_1_n_n_1_1_81_wf : GatherDims.WF S8x100000 S3200000x1 S8x3200000 [0] [1] [] [1] [] 1 ![8, 1]
  scatter_S100000x8_S3200000x1_S3200000x8_1_0_0_1_wf : ScatterDims.WF S100000x8 S3200000x1 S3200000x8 [1] [0] [0] 1
  gather_S8x100000_S16x1_S8x16_0_1_n_n_1_1_81_wf : GatherDims.WF S8x100000 S16x1 S8x16 [0] [1] [] [1] [] 1 ![8, 1]

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def gather_S8x100000_S16x1_S8x16_0_1_n_n_1_1_81 : GatherDims S8x100000 S16x1 S8x16 where
  offsetDims := [0]
  collapsedSliceDims := [1]
  operandBatchingDims := []
  startIndicesBatchingDims := []
  startIndexMap := [1]
  indexVectorDim := 1
  sliceSizes := ![8, 1]
  wf := gather_S8x100000_S16x1_S8x16_0_1_n_n_1_1_81_wf

class Facts : Prop extends Facts₀ where

variable [Facts]
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.PreFacts.lean ====
/-
  What the precondition says of the inputs: every entry of the node heads, of the demands and of the edge
  attributes is a real number (neither infinity), and every word of the edge list names a node, that is, read as a
  signed integer it lies in [0, 100000).
-/
import proofs.«408504_j58909771432751_3_alg».proof.Pre_finite_inputs
import proofs.«408504_j58909771432751_3_alg».proof.Proof.LibIdealFinite
import Idealize.ShloMosaic.Lib.ReduceAll
import Idealize.ShloMosaic.Lib.ValueIdx

noncomputable section

namespace Cert.PreFacts

open Idealize.ShloMosaic Cert.Pre_finite_inputs

/-- An extended real whose absolute value max(x, -x) lies strictly below +∞ is a real number: at either
    infinity the absolute value is +∞ itself. -/
private theorem isFin_of_abs_lt_top (x : EReal) (hx : Ideal.cmp .olt (max x (-x)) ⊤ = 1#1) :
    IdealFinite.IsFin x := by
  induction x using EReal.rec with
  | bot => simp [Ideal.cmp] at hx
  | coe r => exact ⟨r, rfl⟩
  | top => simp [Ideal.cmp] at hx

/-- The scalar shape has one index only. -/
private instance : Subsingleton S_.Idx := ⟨fun a b => funext fun d => d.elim0⟩

/-- The precondition, decoded: the three float inputs hold real numbers and the edge list's words are node numbers. -/
theorem decode [Cert.Pre_finite_inputs.Facts] (h d : FVec Ideal S8x100000 .f32) (ei : IVec S2x3200000 32)
    (ea : FVec Ideal S3200000x2 .f32) (rn : IVec S16 32)
    (hpre : Cert.Pre_finite_inputs.fn (F := Ideal) h d ei ea rn = fun _ => 1#1) :
    IdealFinite.AllFin h ∧ IdealFinite.AllFin d ∧ IdealFinite.AllFin ea
      ∧ ∀ i, 0 ≤ (ei i).toInt ∧ (ei i).toInt < 100000 := by
  have h0 := congrFun hpre ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ⟨?_, ?_⟩⟩
  · have e := Host.reduce_andi_all _ _ _ _ _ h1 i
    exact isFin_of_abs_lt_top (h i) (by rw [← IdealFinite.ofBits_7F800000]; exact e)
  · have e := Host.reduce_andi_all _ _ _ _ _ h2 i
    exact isFin_of_abs_lt_top (d i) (by rw [← IdealFinite.ofBits_7F800000]; exact e)
  · have e := Host.reduce_andi_all _ _ _ _ _ h3 i
    exact isFin_of_abs_lt_top (ea i) (by rw [← IdealFinite.ofBits_7F800000]; exact e)
  · have e := Host.reduce_andi_all _ _ _ _ _ h4 i
    have e' : IntOp.cmpi .sge (ei i) 0#32 = 1#1 := e
    have := IntOp.cmpi_sge.1 e'
    simpa using this
  · have e := Host.reduce_andi_all _ _ _ _ _ h5 i
    have e' : IntOp.cmpi .slt (ei i) 100000#32 = 1#1 := e
    have := IntOp.cmpi_slt.1 e'
    have c : (100000#32 : BitVec 32).toInt = 100000 := by decide
    rw [c] at this
    exact this

end Cert.PreFacts

end
-- ==== Proof.KernelPieces.lean ====
/-
  The kernel's host program in pieces, each a function of arrays.

  Before its region the kernel's program cuts the edge list into its row of source words and its row of
  destination words, takes the conductances (column 0 of the edge attributes), and gathers the node heads at both
  rows of words with jnp's take: negative words are wrapped by adding the node count, the gather clamps, and entries
  whose wrapped word is outside [0, 99999] are replaced by a fill value. After the region it scatters the flows into
  a table of zeros, +flows at the wrapped source words and -flows at the wrapped destination words, and forms the
  three scalar losses. Each piece is named here once, so that the statements about the program and the comparison
  with the reference speak of the same terms.
-/
import proofs.«408504_j58909771432751_3_alg».proof.Proof.Gen.KernelIdeal
import Idealize.ShloMosaic.Lib.ValueIdx

noncomputable section

namespace Cert.KernelIdeal.RunValue

open Cert.KernelIdeal Cert.KernelIdeal.Gen Idealize.ShloMosaic Idealize.SL.Sem

variable {F : FTy → Type} [FloatOps F]

/-! ## The pieces, as functions of arrays -/

/-- Row 0 of the edge list: the source words. -/
def srcWords (x2 : IVec S2x3200000 32) : IVec S3200000 32 :=
  shapeCast _ (extractStridedSlice S1x3200000 ![0, 0] x2 slices_S2x3200000_S1x3200000_0_0) shapeCasts_S1x3200000_S3200000

/-- Row 1 of the edge list: the destination words. -/
def dstWords (x2 : IVec S2x3200000 32) : IVec S3200000 32 :=
  shapeCast _ (extractStridedSlice S1x3200000 ![1, 0] x2 slices_S2x3200000_S1x3200000_1_0) shapeCasts_S1x3200000_S3200000

/-- Column 0 of the edge attributes: the conductances. -/
def condVec (x3 : FVec F S3200000x2 .f32) : FVec F S3200000 .f32 :=
  shapeCast _ (extractStridedSlice S3200000x1 ![0, 0] x3 slices_S3200000x2_S3200000x1_0_0) shapeCasts_S3200000x1_S3200000

/-- The conductances as a single row. -/
def condRow (x3 : FVec F S3200000x2 .f32) : FVec F S1x3200000 .f32 :=
  shapeCast _ (condVec x3) shapeCasts_S3200000_S1x3200000

/-- jnp's negative-index wrap: a negative word gets the node count added. -/
def wrapWords (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- A vector of words kept as a column, the form the gather and the scatter read their indices in. -/
def colWords (v : IVec S3200000 32) : IVec S3200000x1 32 :=
  broadcastInDim S3200000x1 ![0] bcast_S3200000_S3200000x1_0 v

/-- The take's range test: 1 where the word is in [0, 99999]. -/
def inBounds (v5 : IVec S3200000x1 32) : IVec S3200000 1 :=
  Host.reduce IntOp.andi
    (andi (cmpi .sge v5 (broadcastInDim S3200000x1 ![] bcast_S_S3200000x1 (constantI S_ 32 0#32)))
      (cmpi .sle v5 (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- jnp's take of the node heads' columns at the words `v`: wrapped, gathered, filled where out of range. -/
def takeCols (x0 : FVec F S8x100000 .f32) (v : IVec S3200000 32) : FVec F S8x3200000 .f32 :=
  select (broadcastInDim S8x3200000 ![1] bcast_S3200000_S8x3200000_1 (inBounds (colWords (wrapWords v))))
    (Host.gather gather_S8x100000_S3200000x1_S8x3200000_0_1_n_n_1_1_81 x0 (colWords (wrapWords v)))
    (broadcastInDim S8x3200000 ![] bcast_S_S8x3200000 (constant S_ .f32 0x7FC00000#32))

/-- The flows as one function of the gathered heads at the sources `hs`, at the destinations `hd`, and the row of
    conductances `g`: entry (b, e) is the conductance of edge e times the difference of the two heads. -/
def flowsOf (hs hd : S8x3200000.Idx → Elt F .f32) (g : S1x3200000.Idx → Elt F .f32) : S8x3200000.Idx → Elt F .f32 :=
  fun i => FloatOps.mulf (g (ValueIdx.ix2 (0 : Fin 1) (i 1))) (FloatOps.subf (hs i) (hd i))

/-- The flows array as a function of the argument arrays: `flowsOf` of the two takes of the node heads and the
    conductance row. -/
def flowsArr (a0 : FVec F S8x100000 .f32) (a2 : IVec S2x3200000 32) (a3 : FVec F S3200000x2 .f32) : FVec F S8x3200000 .f32 :=
  flowsOf (takeCols a0 (srcWords a2)) (takeCols a0 (dstWords a2)) (condRow a3)

/-- The net flows: +f scattered at the wrapped source words, then -f at the wrapped destination words, from zeros. -/
def netFlows (f : FVec F S8x3200000 .f32) (s d : IVec S3200000 32) : FVec F S8x100000 .f32 :=
  Host.scatterAdd scatter_S8x100000_S3200000x1_S8x3200000_0_1_1_1
    (Host.scatterAdd scatter_S8x100000_S3200000x1_S8x3200000_0_1_1_1
      (broadcastInDim S8x100000 ![] bcast_S_S8x100000 (constant S_ .f32 0x00000000#32)) (colWords (wrapWords s)) f)
    (colWords (wrapWords d)) (Host.negf f)

/-- The continuity loss: the mean of the squared difference of the net flows and the demands. -/
def contLoss (net dem : FVec F S8x100000 .f32) : FVec F S_ .f32 :=
  Host.divf (Host.reduceAdd (mulf (subf net dem) (subf net dem)) (constant S_ .f32 0x00000000#32) reducesTo_S8x100000_S_d0_1 h_S_)
    (constant S_ .f32 0x49435000#32)

/-- The heads at the reservoir nodes less the reservoir head. -/
def resDiff (x0 : FVec F S8x100000 .f32) (x4 : IVec S16 32) : FVec F S8x16 .f32 :=
  subf (Host.gather gather_S8x100000_S16x1_S8x16_0_1_n_n_1_1_81 x0
      (broadcastInDim S16x1 ![0] bcast_S16_S16x1_0
        (select (cmpi .slt x4 (broadcastInDim S16 ![] bcast_S_S16 (constantI S_ 32 0#32)))
          (addi x4 (broadcastInDim S16 ![] bcast_S_S16 (constantI S_ 32 100000#32))) x4)))
    (broadcastInDim S8x16 ![] bcast_S_S8x16 (constant S_ .f32 0x42C80000#32))

/-- The boundary loss: the mean of its square. -/
def bndLoss (x0 : FVec F S8x100000 .f32) (x4 : IVec S16 32) : FVec F S_ .f32 :=
  Host.divf (Host.reduceAdd (mulf (resDiff x0 x4) (resDiff x0 x4)) (constant S_ .f32 0x00000000#32) reducesTo_S8x16_S_d0_1 h_S_)
    (constant S_ .f32 0x43000000#32)

/-- The total: the sum of the two losses, times one. -/
def totalLoss (a b : FVec F S_ .f32) : FVec F S_ .f32 :=
  mulf (addf a b) (constant S_ .f32 0x3F800000#32)

end Cert.KernelIdeal.RunValue

end
-- ==== Proof.KernelFlows.lean ====
/-
  The flows array after the kernel's region, as one function of the three arrays the region stages.

  The grid has 20 points; point t works on edges [160000 t, 160000 (t + 1)). The body multiplies, entry by entry,
  the conductance of an edge (a single row, laid along every one of the 8 batch rows) by the difference of the two
  gathered head arrays. So every block written back is the block of ONE function of the whole arrays,
      flows (b, e) = g (0, e) · (hs (b, e) - hd (b, e)),
  and since the 20 blocks tile the edge axis the array ends holding that function everywhere.
-/
import proofs.«408504_j58909771432751_3_alg».proof.Proof.Gen.KernelIdeal.Frame
import proofs.«408504_j58909771432751_3_alg».proof.Proof.KernelPieces
import Idealize.ShloMosaic.Lib.Pipeline.Value
import Idealize.ShloMosaic.Lib.ValueIdx

set_option maxRecDepth 16384

noncomputable section

namespace Cert.KernelIdeal.FlowsValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RunValue (flowsOf)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's product at entry (p, q) of a block: the conductance row's entry q times the difference at (p, q). -/
theorem pay_apply (x2 : Vec F S1x160000 .f32) (x0 x1 : Vec F S8x160000 .f32) (p : Fin 8) (q : Fin 160000) :
    k0_pay1 x2 x0 x1 (ix2 p q) = FloatOps.mulf (x2 (ix2 (0 : Fin 1) q)) (FloatOps.subf (x0 (ix2 p q)) (x1 (ix2 p q))) := by
  unfold k0_pay1
  rw [shapeCast_self, shapeCast_self, shapeCast_self]
  show FloatOps.mulf (broadcastTo S8x160000 x2 broadcasts_S1x160000_S8x160000 (ix2 p q)) _ = _
  rw [broadcastTo_apply x2 broadcasts_S1x160000_S8x160000 (ix2 p q) (ix2 (0 : Fin 1) q) (fun a => by
    match a with
    | ⟨0, _⟩ => rfl
    | ⟨1, _⟩ => rfl)]
  rfl

/-- The printed index maps over the grid: every window sits at block row 0, and the three inputs move along the
    edge axis with the output, block t at point t. -/
theorem idx_facts : ∀ t : Fin cfg0.N, win0_3.index t (0 : Fin 2) = 0 ∧ win0_3.index t (1 : Fin 2) = t.val
    ∧ win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The point whose block holds edge column q: q / 160000. -/
theorem idx_onto : ∀ q1 : Fin 20, ∃ t : Fin cfg0.N, win0_3.index t = ![0, q1.val] :=
  (by decide +kernel : ∀ q1 : Fin 20, ∃ t : Fin grid0.N, win0_3.index t = ![0, q1.val])

/-- The body's product as a function of its three loaded blocks, entry by entry. -/
theorem pay_eq (x2 : Vec F S1x160000 .f32) (x0 x1 : Vec F S8x160000 .f32) :
    k0_pay1 x2 x0 x1 = fun j => FloatOps.mulf (x2 (ix2 (0 : Fin 1) (j 1))) (FloatOps.subf (x0 j) (x1 j)) := by
  funext j
  obtain ⟨p, q, rfl⟩ : ∃ (p : Fin 8) (q : Fin 160000), j = ix2 p q := ⟨j 0, j 1, eq_ix2 j⟩
  exact pay_apply x2 x0 x1 p q

set_option maxHeartbeats 400000 in
/-- For ANY three arrays: the body's result on their blocks at point t, as written back, is block t of `flowsOf`
    of the arrays. -/
theorem flushed_core (A0 A1 : S8x3200000.Idx → Elt F .f32) (A2 : S1x3200000.Idx → Elt F .f32) (t : Fin cfg0.N) :
    (cfg0.win 3).cut (grid0.coords t)
        (out0_3 (((cfg0.win 0).blk t).view.read (Elt F) A0) (((cfg0.win 1).blk t).view.read (Elt F) A1)
          (((cfg0.win 2).blk t).view.read (Elt F) A2))
      = ((cfg0.win 3).blk t).view.read (Elt F) (flowsOf A0 A1 A2) := by
  unfold out0_3
  rw [View.canon_unit_zero hz]
  simp only [View.ld_unit_zero (S := S8x160000) hz, View.ld_unit_zero (S := S1x160000) hz]
  rw [pay_eq]
  obtain ⟨e30, e31, e00, e01, e10, e11, e20, e21⟩ := idx_facts t
  funext j
  obtain ⟨p, q, rfl⟩ : ∃ (p : Fin 8) (q : Fin 160000), j = ix2 p q := ⟨j 0, j 1, eq_ix2 j⟩
  show FloatOps.mulf (A2 (((cfg0.win 2).blk t).view.emb (ix2 (0 : Fin 1) q)))
      (FloatOps.subf (A0 (((cfg0.win 0).blk t).view.emb (ix2 p q))) (A1 (((cfg0.win 1).blk t).view.emb (ix2 p q))))
    = FloatOps.mulf (A2 (ix2 (0 : Fin 1) ((((cfg0.win 3).blk t).view.emb (ix2 p q)) 1)))
      (FloatOps.subf (A0 (((cfg0.win 3).blk t).view.emb (ix2 p q))) (A1 (((cfg0.win 3).blk t).view.emb (ix2 p q))))
  have h0 : ((cfg0.win 0).blk t).view.emb (ix2 p q) = ((cfg0.win 3).blk t).view.emb (ix2 p q) := by
    funext a; apply Fin.ext
    match a with
    | ⟨0, _⟩ => show win0_0.index t (0 : Fin 2) * 8 + 1 * p.val = win0_3.index t (0 : Fin 2) * 8 + 1 * p.val; omega
    | ⟨1, _⟩ => show win0_0.index t (1 : Fin 2) * 160000 + 1 * q.val = win0_3.index t (1 : Fin 2) * 160000 + 1 * q.val; omega
  have h1 : ((cfg0.win 1).blk t).view.emb (ix2 p q) = ((cfg0.win 3).blk t).view.emb (ix2 p q) := by
    funext a; apply Fin.ext
    match a with
    | ⟨0, _⟩ => show win0_1.index t (0 : Fin 2) * 8 + 1 * p.val = win0_3.index t (0 : Fin 2) * 8 + 1 * p.val; omega
    | ⟨1, _⟩ => show win0_1.index t (1 : Fin 2) * 160000 + 1 * q.val = win0_3.index t (1 : Fin 2) * 160000 + 1 * q.val; omega
  have h2 : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 160000 + 1 * q.val = win0_3.index t (1 : Fin 2) * 160000 + 1 * q.val; omega
  rw [h0, h1, h2]
  rfl

set_option maxHeartbeats 100000 in
/-- WHAT POINT t WRITES BACK is block t of `flowsOf` of the three staged arrays as the region finds them. -/
theorem flushed3_eq (c : Dev nD) (t : Fin cfg0.N) :
    (dats m 0 c).flushed 3 t
      = ((cfg0.win 3).blk t).view.read (Elt F)
          (flowsOf (V m c (Pipeline.arrRef spec0 0)) (V m c (Pipeline.arrRef spec0 1)) (V m c (Pipeline.arrRef spec0 2))) := by
  show (cfg0.win 3).cut (grid0.coords t) ((dats m 0 c).after 3 t) = _
  rw [after0_3]
  exact flushed_core _ _ _ t

/-- An index of the flows array is in point t's block iff each coordinate is in the block's range on its axis. -/
theorem mem_blk3 (t : Fin cfg0.N) (i : S8x3200000.Idx) :
    i ∈ ((cfg0.win 3).blk t).view.set ↔ ∀ a : Fin 2, win0_3.index t a * S8x160000.size a ≤ (i a).val ∧ (i a).val < win0_3.index t a * S8x160000.size a + S8x160000.size a := by
  show i ∈ ((View.whole main_v9).slice (win0_3.rect t)).set ↔ _
  rw [View.set_slice_whole, Rect.mem_set_unit]
  exact Iff.rfl

/-- The 20 blocks tile the array: column e is in the block of point e / 160000. -/
theorem cover3 (i : S8x3200000.Idx) :
    ∃ t : Fin cfg0.N, (cfg0.win 3).flush t = true ∧ i ∈ ((cfg0.win 3).blk t).view.set := by
  have hi0 : (i 0).val < 8 := (i 0).isLt
  have hi1 : (i 1).val < 3200000 := (i 1).isLt
  obtain ⟨t, ht⟩ := idx_onto ⟨(i 1).val / 160000, by omega⟩
  have q0 : win0_3.index t (0 : Fin 2) = 0 := congrFun ht 0
  have q1 : win0_3.index t (1 : Fin 2) = (i 1).val / 160000 := congrFun ht 1
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 160000 ≤ (i 1).val ∧ (i 1).val < win0_3.index t (1 : Fin 2) * 160000 + 160000; omega

/-- THE FLOWS ARRAY after the region: `flowsOf` of the three staged arrays as the region finds them. -/
theorem final3 (c : Dev nD) :
    (dats m 0 c).arrAt 3 cfg0.N = flowsOf (V m c (Pipeline.arrRef spec0 0)) (V m c (Pipeline.arrRef spec0 1)) (V m c (Pipeline.arrRef spec0 2)) :=
  (dats m 0 c).arrAt_eq_of_cover 3 (flowsOf (V m c (Pipeline.arrRef spec0 0)) (V m c (Pipeline.arrRef spec0 1)) (V m c (Pipeline.arrRef spec0 2)))
    (fun t _ => flushed3_eq m c t) (cover3)

end Cert.KernelIdeal.FlowsValue

end
-- ==== Proof.KernelRun.lean ====
/-
  The kernel's program around its region, read as values: the buffers the region finds, and the result buffers
  after the host tail, hold the pieces named in the module of the pieces, of the argument arrays and of the flows
  array the region leaves.
-/
import proofs.«408504_j58909771432751_3_alg».proof.Proof.Gen.KernelIdeal.Frame
import proofs.«408504_j58909771432751_3_alg».proof.Proof.KernelPieces
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## Contents at a value's type and at its buffer's type

A value of an outlined function is kept in a buffer whose type equals the value's; contents pass from one type to the
other by transport along that equation, which does nothing. -/

/-- Transport to a buffer's type and back is the identity. -/
theorem ofBuf_toBuf {T : BufTy} (x : TRef sig T) (v : T.Contents (Elt F)) : x.ofBuf (x.toBuf v) = v := by
  obtain ⟨r, rfl, _, _⟩ := x
  rfl

theorem toBuf_v6 (h1 h2 h3) (X : (⟨S8x3200000, .f32⟩ : BufTy).Contents (Elt F)) :
    (TRef.of (T := ⟨S8x3200000, .f32⟩) main_v6 h1 h2 h3).toBuf X = X := rfl
theorem toBuf_v7 (h1 h2 h3) (X : (⟨S8x3200000, .f32⟩ : BufTy).Contents (Elt F)) :
    (TRef.of (T := ⟨S8x3200000, .f32⟩) main_v7 h1 h2 h3).toBuf X = X := rfl
theorem ofBuf_v1 (h1 h2 h3) (X : main_v1.ty.Contents (Elt F)) :
    (TRef.of (T := ⟨S3200000, .i32⟩) main_v1 h1 h2 h3).ofBuf X = X := rfl
theorem ofBuf_v3 (h1 h2 h3) (X : main_v3.ty.Contents (Elt F)) :
    (TRef.of (T := ⟨S3200000, .i32⟩) main_v3 h1 h2 h3).ofBuf X = X := rfl
theorem ofBuf_arg0 (h1 h2 h3) (X : main_arg0.ty.Contents (Elt F)) :
    (TRef.of (T := ⟨S8x100000, .f32⟩) main_arg0 h1 h2 h3).ofBuf X = X := rfl

variable (m : (ℓ : Loc nD τ sig) → Buf (Elt F) ℓ)

/-! ## What the region finds -/

/-- The source words. -/
theorem V_v1 (c : Dev nD) :
    (V m c main_v1 : S3200000.Idx → BitVec 32) = srcWords (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  rfl

/-- The destination words. -/
theorem V_v3 (c : Dev nD) :
    (V m c main_v3 : S3200000.Idx → BitVec 32) = dstWords (m ((c : Thread nD τ).loc main_arg2)) := by
  dsimp only [V, V0]
  simp only [hostOps0, hostOps0_1, hostOps0_2, hostOps0_3, List.flatten_cons, List.flatten_nil, List.append_nil,
    List.cons_append, List.nil_append]
  after_results_simp
  rfl

/-- Window 0's array: the node heads taken at the source words. -/
theorem V_v6 (c : Dev nD) :
    (V m c main_v6 : S8x3200000.Idx → Elt F .f32)
      = takeCols (m ((c : Thread nD τ).loc main_arg0)) (srcWords (m ((c : Thread nD τ).loc main_arg2))) := by
  dsimp only [V, V0]
  simp only [hostOps0, hostOps0_1, hostOps0_2, hostOps0_3, List.flatten_cons, List.flatten_nil, List.append_nil,
    List.cons_append, List.nil_append]
  after_results_simp
  simp only [ofBuf_toBuf, toBuf_v6, ofBuf_v1, ofBuf_arg0]
  rfl

/-- Window 1's array: the node heads taken at the destination words. -/
theorem V_v7 (c : Dev nD) :
    (V m c main_v7 : S8x3200000.Idx → Elt F .f32)
      = takeCols (m ((c : Thread nD τ).loc main_arg0)) (dstWords (m ((c : Thread nD τ).loc main_arg2))) := by
  dsimp only [V, V0]
  simp only [hostOps0, hostOps0_1, hostOps0_2, hostOps0_3, List.flatten_cons, List.flatten_nil, List.append_nil,
    List.cons_append, List.nil_append]
  after_results_simp
  simp only [ofBuf_toBuf, toBuf_v7, ofBuf_v3, ofBuf_arg0]
  rfl

/-- Window 2's array: the conductances as a row. -/
theorem V_v8 (c : Dev nD) :
    (V m c main_v8 : S1x3200000.Idx → Elt F .f32) = condRow (m ((c : Thread nD τ).loc main_arg3)) := by
  dsimp only [V, V0]
  simp only [hostOps0, hostOps0_1, hostOps0_2, hostOps0_3, List.flatten_cons, List.flatten_nil, List.append_nil,
    List.cons_append, List.nil_append]
  after_results_simp
  rfl

/-! ## What the host tail leaves

Stated for ANY contents `V₀` at the region's entry and any proof data of the pipeline: the tail reads the flows array
the region leaves, the two rows of words, the demands, the node heads and the reservoir nodes. -/

variable (V₀ : Dev nD → Valuation τ sig (Elt F))
  (dats' : (p : Fin 1) → (c : Dev nD) → Dat τ (Elt F) Unit ℕ (UR sig nD τ) ℕ (cfgs p) c)

/-- The continuity loss. -/
theorem tail_v29 (c : Dev nD) :
    (Pipeline.afterTail₀ cfgs dats' 0 V₀ [hostOps1] c main_v29 : S_.Idx → Elt F .f32)
      = contLoss (netFlows ((dats' 0 c).arrAt 3 cfg0.N) (V₀ c (Proc.devRef .tc main_v1)) (V₀ c (Proc.devRef .tc main_v3)))
          (V₀ c (Proc.devRef .tc main_arg1)) := by
  unfold Pipeline.afterTail₀
  show StableHlo.after hostOps1 _ (Proc.devRef .tc main_v29) = _
  after_results_simp
  rw [Pipeline.withArrays_arr spec0 launch0.win.arr_inj c _ _ 3,
    Pipeline.withArrays_of_ne _ c (V₀ c) _ main_v1 (by exact (by decide : ∀ w, Pipeline.arrRef spec0 w ≠ main_v1)),
    Pipeline.withArrays_of_ne _ c (V₀ c) _ main_v3 (by exact (by decide : ∀ w, Pipeline.arrRef spec0 w ≠ main_v3)),
    Pipeline.withArrays_of_ne _ c (V₀ c) _ main_arg1 (by exact (by decide : ∀ w, Pipeline.arrRef spec0 w ≠ main_arg1))]
  rfl

/-- The boundary loss. -/
theorem tail_v41 (c : Dev nD) :
    (Pipeline.afterTail₀ cfgs dats' 0 V₀ [hostOps1] c main_v41 : S_.Idx → Elt F .f32)
      = bndLoss (V₀ c (Proc.devRef .tc main_arg0)) (V₀ c (Proc.devRef .tc main_arg4)) := by
  unfold Pipeline.afterTail₀
  show StableHlo.after hostOps1 _ (Proc.devRef .tc main_v41) = _
  after_results_simp
  rw [Pipeline.withArrays_of_ne _ c (V₀ c) _ main_arg0 (by exact (by decide : ∀ w, Pipeline.arrRef spec0 w ≠ main_arg0)),
    Pipeline.withArrays_of_ne _ c (V₀ c) _ main_arg4 (by exact (by decide : ∀ w, Pipeline.arrRef spec0 w ≠ main_arg4))]
  rfl

set_option maxHeartbeats 1000000 in
/-- The total loss. -/
theorem tail_v43 (c : Dev nD) :
    (Pipeline.afterTail₀ cfgs dats' 0 V₀ [hostOps1] c main_v43 : S_.Idx → Elt F .f32)
      = totalLoss
          (contLoss (netFlows ((dats' 0 c).arrAt 3 cfg0.N) (V₀ c (Proc.devRef .tc main_v1)) (V₀ c (Proc.devRef .tc main_v3)))
            (V₀ c (Proc.devRef .tc main_arg1)))
          (bndLoss (V₀ c (Proc.devRef .tc main_arg0)) (V₀ c (Proc.devRef .tc main_arg4))) := by
  unfold Pipeline.afterTail₀
  show StableHlo.after hostOps1 _ (Proc.devRef .tc main_v43) = _
  after_results_simp
  rw [Pipeline.withArrays_arr spec0 launch0.win.arr_inj c _ _ 3,
    Pipeline.withArrays_of_ne _ c (V₀ c) _ main_v1 (by exact (by decide : ∀ w, Pipeline.arrRef spec0 w ≠ main_v1)),
    Pipeline.withArrays_of_ne _ c (V₀ c) _ main_v3 (by exact (by decide : ∀ w, Pipeline.arrRef spec0 w ≠ main_v3)),
    Pipeline.withArrays_of_ne _ c (V₀ c) _ main_arg1 (by exact (by decide : ∀ w, Pipeline.arrRef spec0 w ≠ main_arg1)),
    Pipeline.withArrays_of_ne _ c (V₀ c) _ main_arg0 (by exact (by decide : ∀ w, Pipeline.arrRef spec0 w ≠ main_arg0)),
    Pipeline.withArrays_of_ne _ c (V₀ c) _ main_arg4 (by exact (by decide : ∀ w, Pipeline.arrRef spec0 w ≠ main_arg4))]
  rfl

end Cert.KernelIdeal.RunValue

end
-- ==== Proof.KernelValue.lean ====
/-
  The kernel's run, read: every weakly fair execution of the kernel's program terminates with its four results at
  functions of the argument arrays — the flows array at `flowsArr`, the three losses at the host tail's operations
  of it — and the arguments unchanged. The generated frame run gives the flows array as what the pipeline's proof data
  compute and every other result as what the host tail computes from it; the two modules before this one read both.
-/
import proofs.«408504_j58909771432751_3_alg».proof.Proof.KernelFlows
import proofs.«408504_j58909771432751_3_alg».proof.Proof.KernelRun

noncomputable section

namespace Cert.KernelIdeal.RunValue

open Cert.KernelIdeal Cert.KernelIdeal.Gen Idealize.ShloMosaic Idealize.ShloMosaic.TcCoe Idealize.SL.Sem
open Idealize.ShloMosaic.Pipeline (Dat)

variable {F : FTy → Type} [FloatOps F]

/-! ## Equal arguments give equal losses -/

theorem contLoss_congr {A A' : FVec F S8x3200000 .f32} {s s' d d' : IVec S3200000 32} {dem dem' : FVec F S8x100000 .f32}
    (hA : A = A') (hs : s = s') (hd : d = d') (hdem : dem = dem') :
    contLoss (netFlows A s d) dem = contLoss (netFlows A' s' d') dem' := by
  subst hA hs hd hdem; rfl

theorem bndLoss_congr {a a' : FVec F S8x100000 .f32} {r r' : IVec S16 32} (ha : a = a') (hr : r = r') :
    bndLoss a r = bndLoss a' r' := by
  subst ha hr; rfl

theorem totalLoss_congr {a a' b b' : FVec F S_ .f32} (ha : a = a') (hb : b = b') :
    totalLoss a b = totalLoss a' b' := by
  subst ha hb; rfl

variable (m : (ℓ : Loc nD τ sig) → Buf (Elt F) ℓ) (ρ : Dev nD → PrngReg)

/-! ## The flows array -/

/-- After the region the flows array holds `flowsArr` of the argument arrays. -/
theorem arr3 (c : Dev nD) :
    ((dats m 0 c).arrAt 3 cfg0.N : S8x3200000.Idx → Elt F .f32)
      = flowsArr (m ((c.tc : Thread nD τ).loc main_arg0)) (m ((c.tc : Thread nD τ).loc main_arg2)) (m ((c.tc : Thread nD τ).loc main_arg3)) := by
  have e0 : (V m c (Pipeline.arrRef spec0 0) : S8x3200000.Idx → Elt F .f32)
      = takeCols (m ((c.tc : Thread nD τ).loc main_arg0)) (srcWords (m ((c.tc : Thread nD τ).loc main_arg2))) := V_v6 m c
  have e1 : (V m c (Pipeline.arrRef spec0 1) : S8x3200000.Idx → Elt F .f32)
      = takeCols (m ((c.tc : Thread nD τ).loc main_arg0)) (dstWords (m ((c.tc : Thread nD τ).loc main_arg2))) := V_v7 m c
  have e2 : (V m c (Pipeline.arrRef spec0 2) : S1x3200000.Idx → Elt F .f32)
      = condRow (m ((c.tc : Thread nD τ).loc main_arg3)) := V_v8 m c
  exact (FlowsValue.final3 m c).trans (congr (congr (congrArg flowsOf e0) e1) e2)

/-! ## The run -/

/-- The frame run re-posted: each result at its function of the argument arrays, the arguments unchanged. -/
theorem run : θ_run defs (onTc (τ := τ) (main (F := F))) ⟨m, fun _ => 0, ρ⟩ (fun r => ∀ c : Dev nD,
      r.2.mem ((c.tc : Thread nD τ).loc main_v29) = (contLoss (netFlows (flowsArr (m ((c.tc : Thread nD τ).loc main_arg0)) (m ((c.tc : Thread nD τ).loc main_arg2)) (m ((c.tc : Thread nD τ).loc main_arg3))) (srcWords (m ((c.tc : Thread nD τ).loc main_arg2))) (dstWords (m ((c.tc : Thread nD τ).loc main_arg2)))) (m ((c.tc : Thread nD τ).loc main_arg1)))
      ∧ r.2.mem ((c.tc : Thread nD τ).loc main_v41) = (bndLoss (m ((c.tc : Thread nD τ).loc main_arg0)) (m ((c.tc : Thread nD τ).loc main_arg4)))
      ∧ r.2.mem ((c.tc : Thread nD τ).loc main_v43) = totalLoss (contLoss (netFlows (flowsArr (m ((c.tc : Thread nD τ).loc main_arg0)) (m ((c.tc : Thread nD τ).loc main_arg2)) (m ((c.tc : Thread nD τ).loc main_arg3))) (srcWords (m ((c.tc : Thread nD τ).loc main_arg2))) (dstWords (m ((c.tc : Thread nD τ).loc main_arg2)))) (m ((c.tc : Thread nD τ).loc main_arg1))) (bndLoss (m ((c.tc : Thread nD τ).loc main_arg0)) (m ((c.tc : Thread nD τ).loc main_arg4)))
      ∧ r.2.mem ((c.tc : Thread nD τ).loc main_v9) = flowsArr (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v29 (Pipeline.mem_restRefs_of main_v29 (by decide) (by decide))).trans
        ((tail_v29 (V0 m) (dats m) c).trans
          (contLoss_congr (arr3 m c) (V_v1 m c) (V_v3 m c) (V_main_arg1 m c))),
      ((h c).2 main_v41 (Pipeline.mem_restRefs_of main_v41 (by decide) (by decide))).trans
        ((tail_v41 (V0 m) (dats m) c).trans (bndLoss_congr (V_main_arg0 m c) (V_main_arg4 m c))),
      ((h c).2 main_v43 (Pipeline.mem_restRefs_of main_v43 (by decide) (by decide))).trans
        ((tail_v43 (V0 m) (dats m) c).trans
          (totalLoss_congr (contLoss_congr (arr3 m c) (V_v1 m c) (V_v3 m c) (V_main_arg1 m c))
            (bndLoss_congr (V_main_arg0 m c) (V_main_arg4 m c)))),
      ((h c).1 3).trans (arr3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.LibIndexWords.lean ====
/-
  Index words read as signed integers: what the usual index arithmetic does to words that are already in range.

  • jnp's negative-index wrap, `where(v < 0, v + N, v)`, leaves a word that is not negative as it is.
  • A lane-by-lane choice whose condition is 1 everywhere is its first branch.
  • The range test `(v ≥ 0) and (v ≤ N - 1)` is 1 at every word in [0, N).
  • An and-reduction of an array of ones, started from one, is one everywhere.
-/
import Idealize.ShloMosaic.PureOps
import Idealize.ShloMosaic.PureOps.Reduce
import Idealize.ShloMosaic.Lib.Affine
import Idealize.ShloMosaic.Lib.ValueIdx

namespace IndexWords

open Idealize.ShloMosaic

/-- The negative-index wrap is the identity on words that are not negative (`z` is the array of zeros it compares
    with, `a` the shifted words it would choose, whatever they are). -/
theorem select_slt_zero {S : Shape} (v z a : IVec S 32) (hz : ∀ i, z i = 0#32) (hv : ∀ i, 0 ≤ (v i).toInt) :
    select (cmpi .slt v z) a v = v := by
  funext i
  -- the comparison's bit at i is 0: it could only be 1 if (v i) were below 0 as a signed integer
  have hc : cmpi .slt v z i = 0#1 := by
    apply ValueIdx.eq_zero_of_ne_one
    intro h
    have h' : IntOp.cmpi .slt (v i) (z i) = 1#1 := h
    rw [IntOp.cmpi_slt, hz i] at h'
    have h0 : (0#32).toInt = 0 := by decide
    have := hv i
    omega
  rw [ValueIdx.select_apply, hc, ValueIdx.select_zero]

/-- A choice whose condition is 1 everywhere is its first branch. -/
theorem select_all_one {S : Shape} {α : Type} (c : IVec S 1) (hc : ∀ i, c i = 1#1) (a b : S.Idx → α) :
    select c a b = a := by
  funext i
  rw [ValueIdx.select_apply, hc i, ValueIdx.select_one]

/-- The range test `lo ≤ v ∧ v ≤ hi` with `lo = 0` and `hi = 99999` is 1 at every word of [0, 100000). -/
theorem inRange_all_one {S : Shape} (v lo hi : IVec S 32) (hlo : ∀ i, lo i = 0#32) (hhi : ∀ i, hi i = 99999#32)
    (hv : ∀ i, 0 ≤ (v i).toInt ∧ (v i).toInt < 100000) (i : S.Idx) :
    andi (cmpi .sge v lo) (cmpi .sle v hi) i = 1#1 := by
  -- the lower test: 0 ≤ v i
  have h1 : cmpi .sge v lo i = 1#1 := by
    show IntOp.cmpi .sge (v i) (lo i) = 1#1
    rw [IntOp.cmpi_sge, hlo i]
    have h0 : (0#32).toInt = 0 := by decide
    have := (hv i).1
    omega
  -- the upper test: v i ≤ 99999
  have h2 : cmpi .sle v hi i = 1#1 := by
    show IntOp.cmpi .sle (v i) (hi i) = 1#1
    rw [IntOp.cmpi_sle, hhi i]
    have h9 : (99999#32).toInt = 99999 := by decide
    have := (hv i).2
    omega
  show IntOp.andi (cmpi .sge v lo i) (cmpi .sle v hi i) = 1#1
  exact IntOp.andi_eq_one.2 ⟨h1, h2⟩

/-- An and-reduction of ones from one is one. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ i, init i = 1#1) :
    Host.reduce IntOp.andi x init h hu = fun _ => 1#1 := by
  funext j
  -- at j the reduction is a left fold of the and over the entries that drop to j, started from init's element
  rw [Host.reduce_eq_foldl, hinit]
  generalize (((List.finRange s.numel).map s.rowMajor.symm).filter fun i => h.drop i = j) = l
  have h11 : IntOp.andi 1#1 1#1 = 1#1 := by decide
  -- a fold of the and from 1 over entries that are all 1 stays at 1
  induction l with
  | nil => rfl
  | cons a l ih => rw [List.foldl_cons, hx a, h11]; exact ih

end IndexWords
-- ==== Proof.LibGatherScatter.lean ====
/-
  A table of rows gathered and scattered along its column axis, read at an index.

  The operand is a table with B rows and N columns. A list of n integer words, kept as an [n, 1] column,
  names one column of the table per word.
  • GATHER: result entry (b, e) is the table's entry in row b at the column word e names, the word read as a
    signed integer and clamped into [0, N - 1].
  • SCATTER-ADD: entry (b, e) of an update array with B rows and n columns is added to the table's entry in
    row b at the column word e names, when that column exists. So the result's entry (b, k) is the table's
    plus the sum of the update entries (b, e) over the words e that name column k. The transposed layout
    (a table of N rows and B columns, updates of n rows and B columns) reads the same with the coordinates
    exchanged.
-/
import Idealize.ShloMosaic.PureOps.Ideal
import Idealize.ShloMosaic.Lib.ValueIdx
import Mathlib.Data.EReal.Operations
import Mathlib.Algebra.BigOperators.Group.Finset.Basic

noncomputable section

namespace GatherScatter

open Idealize.ShloMosaic Idealize.ShloMosaic.ValueIdx
open scoped BigOperators

/-- The column a word names: the word read as a signed integer, clamped into [0, N - 1]. -/
def clampIdx (N : Nat) (hN : 0 < N) {w : Nat} (x : BitVec w) : Fin N := ⟨min x.toInt.toNat (N - 1), by omega⟩

/-- For a word already in range the clamp does nothing. -/
theorem clampIdx_val {N w : Nat} (hN : 0 < N) (x : BitVec w) (h0 : 0 ≤ x.toInt) (h1 : x.toInt < N) :
    ((clampIdx N hN x).val : Int) = x.toInt := by
  show ((min x.toInt.toNat (N - 1) : Nat) : Int) = x.toInt
  omega

/-! ## Small facts on lists and on the two axes of a table -/

/-- A list that is a singleton has that entry at every position. -/
private theorem getElem_of_eq_singleton {α : Type} (l : List α) (a : α) (hl : l = [a]) (k : Nat) (hk : k < l.length) :
    l[k]'hk = a := by
  subst hl
  have : k = 0 := by simpa using hk
  subst this; rfl

/-- Of two axes, the one that is not axis 0 is axis 1. -/
private theorem fin2_eq_one (a : Fin 2) (h : a ≠ 0) : a = 1 := by
  match a with
  | ⟨0, _⟩ => exact absurd rfl h
  | ⟨1, _⟩ => rfl

/-- Of two axes, the one that is not axis 1 is axis 0. -/
private theorem fin2_eq_zero (a : Fin 2) (h : a ≠ 1) : a = 0 := by
  match a with
  | ⟨0, _⟩ => rfl
  | ⟨1, _⟩ => exact absurd rfl h

/-- A coordinate on an axis of size 1 is 0. -/
private theorem fin1_val {m : Nat} (hm : m = 1) (x : Fin m) : x.val = 0 := by subst hm; omega

/-! ## Where an update lands: the table scattered along its columns -/

section Cols
variable {B N n w : Nat} (d : ScatterDims ⟨2, ![B, N]⟩ ⟨2, ![n, 1]⟩ ⟨2, ![B, n]⟩)
    (huw : d.updateWindowDims = [0]) (hiw : d.insertedWindowDims = [1]) (hsd : d.scatterDimsToOperandDims = [1])
    (hivd : d.indexVectorDim = 1)

include huw hivd in
/-- Update entry (b, e) reads its word at row e of the column of words: the update's one scatter axis is axis 1. -/
private theorem cols_siIdx (b : Fin B) (e : Fin n) (c : Fin d.scatterDimsToOperandDims.length) :
    d.siIdx (ix2 b e) c = ix2 e (0 : Fin 1) := by
  have hmem : ∀ a ∈ d.uScatter, a = 1 := fun a ha => by
    apply fin2_eq_one
    have := (List.mem_filter.1 ha).2
    rw [huw] at this
    simpa using this
  have hus : ∀ (k : Nat) (hk : k < d.uScatter.length), d.uScatter[k]'hk = 1 := fun k hk => hmem _ (List.getElem_mem hk)
  funext a
  match a with
  | ⟨0, _⟩ =>
    unfold ScatterDims.siIdx
    rw [dif_neg (by rw [hivd]; simp)]
    unfold ScatterDims.siCoord
    apply Fin.ext
    simp only [Fin.val_cast]
    rw [hus]
    rfl
  | ⟨1, _⟩ =>
    apply Fin.ext
    exact (fin1_val rfl _).trans (fin1_val rfl _).symm

include huw hiw hsd hivd in
/-- Update entry (b, e), its word in range, lands at row b and the column the word names: on the row axis the start is 0
    and the window coordinate is b; on the column axis the start is the word and the window coordinate is 0. -/
private theorem cols_resultIdx (hN : 0 < N) (idx : IVec ⟨2, ![n, 1]⟩ w) (b : Fin B) (e : Fin n)
    (h0 : 0 ≤ (idx (ix2 e (0 : Fin 1))).toInt) (h1 : (idx (ix2 e (0 : Fin 1))).toInt < N) :
    d.resultIdx? (ix2 b e) idx = some (ix2 b (clampIdx N hN (idx (ix2 e (0 : Fin 1))))) := by
  have hs0 : d.start (ix2 b e) idx 0 = 0 := by
    unfold ScatterDims.start
    rw [dif_neg (by rw [hsd]; simp)]
  have hs1 : d.start (ix2 b e) idx 1 = (idx (ix2 e (0 : Fin 1))).toInt := by
    unfold ScatterDims.start
    rw [dif_pos (by rw [hsd]; simp), cols_siIdx d huw hivd]
  have hk0 : (0 : Fin 2) ∈ d.sKept := by
    simp only [ScatterDims.sKept, Shape.kept, List.mem_filter, hiw]; simp
  have hk1 : (1 : Fin 2) ∉ d.sKept := by
    simp only [ScatterDims.sKept, Shape.kept, List.mem_filter, hiw]; simp
  have hw0 : d.window (ix2 b e) 0 = b.val := by
    unfold ScatterDims.window
    rw [dif_pos hk0, getElem_of_eq_singleton _ _ huw]
    rfl
  have hw1 : d.window (ix2 b e) 1 = 0 := by
    unfold ScatterDims.window
    rw [dif_neg hk1]
  have hb := b.isLt
  have hall : ∀ a, 0 ≤ d.start (ix2 b e) idx a + d.window (ix2 b e) a ∧
      d.start (ix2 b e) idx a + d.window (ix2 b e) a < (⟨2, ![B, N]⟩ : Shape).size a := by
    intro a
    match a with
    | ⟨0, _⟩ =>
      show 0 ≤ d.start (ix2 b e) idx 0 + d.window (ix2 b e) 0 ∧ d.start (ix2 b e) idx 0 + d.window (ix2 b e) 0 < (B : Int)
      rw [hs0, hw0]; omega
    | ⟨1, _⟩ =>
      show 0 ≤ d.start (ix2 b e) idx 1 + d.window (ix2 b e) 1 ∧ d.start (ix2 b e) idx 1 + d.window (ix2 b e) 1 < (N : Int)
      rw [hs1, hw1]; omega
  unfold ScatterDims.resultIdx?
  rw [dif_pos hall]
  congr 1
  funext a
  match a with
  | ⟨0, _⟩ =>
    apply Fin.ext
    show (d.start (ix2 b e) idx 0 + d.window (ix2 b e) 0).toNat = b.val
    rw [hs0, hw0]; omega
  | ⟨1, _⟩ =>
    apply Fin.ext
    show (d.start (ix2 b e) idx 1 + d.window (ix2 b e) 1).toNat = min (idx (ix2 e (0 : Fin 1))).toInt.toNat (N - 1)
    rw [hs1, hw1]; omega
end Cols

/-! ## Where an update lands: the transposed layout, scattered along its rows -/

section Rows
variable {B N n w : Nat} (d : ScatterDims ⟨2, ![N, B]⟩ ⟨2, ![n, 1]⟩ ⟨2, ![n, B]⟩)
    (huw : d.updateWindowDims = [1]) (hiw : d.insertedWindowDims = [0]) (hsd : d.scatterDimsToOperandDims = [0])
    (hivd : d.indexVectorDim = 1)

include huw hivd in
/-- Update entry (e, b) reads its word at row e of the column of words: the update's one scatter axis is axis 0. -/
private theorem rows_siIdx (e : Fin n) (b : Fin B) (c : Fin d.scatterDimsToOperandDims.length) :
    d.siIdx (ix2 e b) c = ix2 e (0 : Fin 1) := by
  have hmem : ∀ a ∈ d.uScatter, a = 0 := fun a ha => by
    apply fin2_eq_zero
    have := (List.mem_filter.1 ha).2
    rw [huw] at this
    simpa using this
  have hus : ∀ (k : Nat) (hk : k < d.uScatter.length), d.uScatter[k]'hk = 0 := fun k hk => hmem _ (List.getElem_mem hk)
  funext a
  match a with
  | ⟨0, _⟩ =>
    unfold ScatterDims.siIdx
    rw [dif_neg (by rw [hivd]; simp)]
    unfold ScatterDims.siCoord
    apply Fin.ext
    simp only [Fin.val_cast]
    rw [hus]
    rfl
  | ⟨1, _⟩ =>
    apply Fin.ext
    exact (fin1_val rfl _).trans (fin1_val rfl _).symm

include huw hiw hsd hivd in
/-- Update entry (e, b), its word in range, lands at the row the word names and column b: on the row axis the start is
    the word and the window coordinate is 0; on the column axis the start is 0 and the window coordinate is b. -/
private theorem rows_resultIdx (hN : 0 < N) (idx : IVec ⟨2, ![n, 1]⟩ w) (e : Fin n) (b : Fin B)
    (h0 : 0 ≤ (idx (ix2 e (0 : Fin 1))).toInt) (h1 : (idx (ix2 e (0 : Fin 1))).toInt < N) :
    d.resultIdx? (ix2 e b) idx = some (ix2 (clampIdx N hN (idx (ix2 e (0 : Fin 1)))) b) := by
  have hs0 : d.start (ix2 e b) idx 0 = (idx (ix2 e (0 : Fin 1))).toInt := by
    unfold ScatterDims.start
    rw [dif_pos (by rw [hsd]; simp), rows_siIdx d huw hivd]
  have hs1 : d.start (ix2 e b) idx 1 = 0 := by
    unfold ScatterDims.start
    rw [dif_neg (by rw [hsd]; simp)]
  have hk0 : (0 : Fin 2) ∉ d.sKept := by
    simp only [ScatterDims.sKept, Shape.kept, List.mem_filter, hiw]; simp
  have hk1 : (1 : Fin 2) ∈ d.sKept := by
    simp only [ScatterDims.sKept, Shape.kept, List.mem_filter, hiw]; simp
  have hw0 : d.window (ix2 e b) 0 = 0 := by
    unfold ScatterDims.window
    rw [dif_neg hk0]
  have hw1 : d.window (ix2 e b) 1 = b.val := by
    unfold ScatterDims.window
    rw [dif_pos hk1, getElem_of_eq_singleton _ _ huw]
    rfl
  have hb := b.isLt
  have hall : ∀ a, 0 ≤ d.start (ix2 e b) idx a + d.window (ix2 e b) a ∧
      d.start (ix2 e b) idx a + d.window (ix2 e b) a < (⟨2, ![N, B]⟩ : Shape).size a := by
    intro a
    match a with
    | ⟨0, _⟩ =>
      show 0 ≤ d.start (ix2 e b) idx 0 + d.window (ix2 e b) 0 ∧ d.start (ix2 e b) idx 0 + d.window (ix2 e b) 0 < (N : Int)
      rw [hs0, hw0]; omega
    | ⟨1, _⟩ =>
      show 0 ≤ d.start (ix2 e b) idx 1 + d.window (ix2 e b) 1 ∧ d.start (ix2 e b) idx 1 + d.window (ix2 e b) 1 < (B : Int)
      rw [hs1, hw1]; omega
  unfold ScatterDims.resultIdx?
  rw [dif_pos hall]
  congr 1
  funext a
  match a with
  | ⟨0, _⟩ =>
    apply Fin.ext
    show (d.start (ix2 e b) idx 0 + d.window (ix2 e b) 0).toNat = min (idx (ix2 e (0 : Fin 1))).toInt.toNat (N - 1)
    rw [hs0, hw0]; omega
  | ⟨1, _⟩ =>
    apply Fin.ext
    show (d.start (ix2 e b) idx 1 + d.window (ix2 e b) 1).toNat = b.val
    rw [hs1, hw1]; omega
end Rows

/-- GATHER of columns: entry (b, e) is the table's row b at the column word e names. -/
theorem gather_cols {α : Type} {B N n w : Nat} (hN : 0 < N)
    (d : GatherDims ⟨2, ![B, N]⟩ ⟨2, ![n, 1]⟩ ⟨2, ![B, n]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![n, 1]⟩ w) (b : Fin B) (e : Fin n) :
    Host.gather d x idx (ix2 b e) = x (ix2 b (clampIdx N hN (idx (ix2 e (0 : Fin 1))))) := by
  have hb : ∀ a : Fin 2, a ∉ d.operandBatchingDims := fun a => by rw [hob]; exact List.not_mem_nil
  have hmem : ∀ a ∈ d.batchDims, a = 1 := fun a ha => by
    apply fin2_eq_one
    have := (List.mem_filter.1 ha).2
    rw [hoff] at this
    simpa using this
  have hbd : ∀ (k : Nat) (hk : k < d.batchDims.length), d.batchDims[k]'hk = 1 := fun k hk => hmem _ (List.getElem_mem hk)
  have hsi : ∀ c, d.siIdx (ix2 b e) c = ix2 e (0 : Fin 1) := by
    intro c
    funext a
    match a with
    | ⟨0, _⟩ =>
      unfold GatherDims.siIdx
      rw [dif_neg (by rw [hivd]; simp)]
      unfold GatherDims.siCoord
      apply Fin.ext
      simp only [Fin.val_cast]
      rw [hbd]
      rfl
    | ⟨1, _⟩ =>
      apply Fin.ext
      exact (fin1_val rfl _).trans (fin1_val rfl _).symm
  have hk0 : (0 : Fin 2) ∈ d.sKept := by rw [GatherDims.mem_sKept, hcoll, hob]; simp
  have hk1 : (1 : Fin 2) ∉ d.sKept := by rw [GatherDims.mem_sKept, hcoll]; simp
  have hsl : d.sliceSizes 1 = 1 := d.slice_collapsed 1 (by rw [hcoll]; simp)
  unfold Host.gather
  congr 1
  funext a
  match a with
  | ⟨0, _⟩ =>
    apply Fin.ext
    show d.start (ix2 b e) idx 0 + d.batchCoord (ix2 b e) 0 + d.offCoord (ix2 b e) 0 = b.val
    rw [d.batchCoord_eq_zero _ _ (hb 0)]
    unfold GatherDims.start GatherDims.offCoord
    rw [dif_neg (by rw [hsim]; simp), dif_pos hk0, getElem_of_eq_singleton _ _ hoff]
    show 0 + 0 + b.val = b.val
    omega
  | ⟨1, _⟩ =>
    apply Fin.ext
    show d.start (ix2 b e) idx 1 + d.batchCoord (ix2 b e) 1 + d.offCoord (ix2 b e) 1
      = min (idx (ix2 e (0 : Fin 1))).toInt.toNat (N - 1)
    rw [d.batchCoord_eq_zero _ _ (hb 1), d.offCoord_eq_zero _ _ hk1]
    unfold GatherDims.start
    rw [dif_pos (by rw [hsim]; simp), hsi, hsl]
    rfl

/-- SCATTER-ADD along the columns of a table with B rows, read at (b, k). -/
theorem scatterAdd_cols_apply {B N n w : Nat} (hN : 0 < N)
    (d : ScatterDims ⟨2, ![B, N]⟩ ⟨2, ![n, 1]⟩ ⟨2, ![B, n]⟩)
    (huw : d.updateWindowDims = [0]) (hiw : d.insertedWindowDims = [1]) (hsd : d.scatterDimsToOperandDims = [1])
    (hivd : d.indexVectorDim = 1)
    (x : (⟨2, ![B, N]⟩ : Shape).Idx → EReal) (idx : IVec ⟨2, ![n, 1]⟩ w) (upd : (⟨2, ![B, n]⟩ : Shape).Idx → EReal)
    (hr : ∀ e : Fin n, 0 ≤ (idx (ix2 e (0 : Fin 1))).toInt ∧ (idx (ix2 e (0 : Fin 1))).toInt < N)
    (b : Fin B) (k : Fin N) :
    Ideal.hostScatterAdd d x idx upd (ix2 b k)
      = x (ix2 b k) + ∑ e ∈ Finset.univ.filter (fun e : Fin n => clampIdx N hN (idx (ix2 e (0 : Fin 1))) = k), upd (ix2 b e) := by
  have hP : ∀ (a : Fin B) (e : Fin n), (d.resultIdx? (ix2 a e) idx = some (ix2 b k)) ↔
      (a = b ∧ clampIdx N hN (idx (ix2 e (0 : Fin 1))) = k) := by
    intro a e
    rw [cols_resultIdx d huw hiw hsd hivd hN idx a e (hr e).1 (hr e).2, Option.some.injEq]
    constructor
    · intro h
      exact ⟨congrFun h 0, congrFun h 1⟩
    · rintro ⟨rfl, rfl⟩; rfl
  unfold Ideal.hostScatterAdd
  congr 1
  rw [Finset.sum_filter, sum_idx2, Finset.sum_filter, Finset.sum_comm]
  refine Finset.sum_congr rfl fun e _ => ?_
  by_cases hc : clampIdx N hN (idx (ix2 e (0 : Fin 1))) = k
  · simp only [hP, hc, and_true, if_true]
    rw [Finset.sum_ite_eq']
    simp
  · simp only [hP, hc, and_false, if_false]
    simp

/-- SCATTER-ADD along the rows of a table with B columns (the transposed layout), read at (k, b). -/
theorem scatterAdd_rows_apply {B N n w : Nat} (hN : 0 < N)
    (d : ScatterDims ⟨2, ![N, B]⟩ ⟨2, ![n, 1]⟩ ⟨2, ![n, B]⟩)
    (huw : d.updateWindowDims = [1]) (hiw : d.insertedWindowDims = [0]) (hsd : d.scatterDimsToOperandDims = [0])
    (hivd : d.indexVectorDim = 1)
    (x : (⟨2, ![N, B]⟩ : Shape).Idx → EReal) (idx : IVec ⟨2, ![n, 1]⟩ w) (upd : (⟨2, ![n, B]⟩ : Shape).Idx → EReal)
    (hr : ∀ e : Fin n, 0 ≤ (idx (ix2 e (0 : Fin 1))).toInt ∧ (idx (ix2 e (0 : Fin 1))).toInt < N)
    (k : Fin N) (b : Fin B) :
    Ideal.hostScatterAdd d x idx upd (ix2 k b)
      = x (ix2 k b) + ∑ e ∈ Finset.univ.filter (fun e : Fin n => clampIdx N hN (idx (ix2 e (0 : Fin 1))) = k), upd (ix2 e b) := by
  have hP : ∀ (e : Fin n) (a : Fin B), (d.resultIdx? (ix2 e a) idx = some (ix2 k b)) ↔
      (clampIdx N hN (idx (ix2 e (0 : Fin 1))) = k ∧ a = b) := by
    intro e a
    rw [rows_resultIdx d huw hiw hsd hivd hN idx e a (hr e).1 (hr e).2, Option.some.injEq]
    constructor
    · intro h
      exact ⟨congrFun h 0, congrFun h 1⟩
    · rintro ⟨rfl, rfl⟩; rfl
  unfold Ideal.hostScatterAdd
  congr 1
  rw [Finset.sum_filter, sum_idx2, Finset.sum_filter]
  refine Finset.sum_congr rfl fun e _ => ?_
  by_cases hc : clampIdx N hN (idx (ix2 e (0 : Fin 1))) = k
  · simp only [hP, hc, true_and, if_true]
    rw [Finset.sum_ite_eq']
    simp
  · simp only [hP, hc, false_and, if_false]
    simp

end GatherScatter

end
-- ==== Proof.LibScatterPair.lean ====
/-
  Two scatter-adds against the difference of two.

  Scattering +f at one list of words and then -f at a second list, from a table of zeros, gives entry by entry
  the difference of the two single scatters of f from zeros (here taken in the transposed layout), when every
  entry of f is a real number: each side is then (the sum of f over the words of the first list that name the
  column) minus (the sum of f over those of the second list), because in the reals a sum of negated terms is the
  negated sum. On the extended reals this needs the entries real: with +∞ and -∞ among them the two sides differ.
-/
import proofs.«408504_j58909771432751_3_alg».proof.Proof.LibGatherScatter
import proofs.«408504_j58909771432751_3_alg».proof.Proof.LibIdealFinite

noncomputable section

namespace GatherScatter

open Idealize.ShloMosaic Idealize.ShloMosaic.ValueIdx
open scoped BigOperators

/-- +f scattered at the words `sIdx`, then -f at the words `dIdx`, from a table of zeros, is entry by entry the
    difference of the two single scatters of f (in the transposed layout) from zeros, for f with real entries. -/
theorem scatter_pm_eq_sub {B N n w : Nat} (hN : 0 < N)
    (dK : ScatterDims ⟨2, ![B, N]⟩ ⟨2, ![n, 1]⟩ ⟨2, ![B, n]⟩)
    (huwK : dK.updateWindowDims = [0]) (hiwK : dK.insertedWindowDims = [1]) (hsdK : dK.scatterDimsToOperandDims = [1])
    (hivdK : dK.indexVectorDim = 1)
    (dR : ScatterDims ⟨2, ![N, B]⟩ ⟨2, ![n, 1]⟩ ⟨2, ![n, B]⟩)
    (huwR : dR.updateWindowDims = [1]) (hiwR : dR.insertedWindowDims = [0]) (hsdR : dR.scatterDimsToOperandDims = [0])
    (hivdR : dR.indexVectorDim = 1)
    (z : (⟨2, ![B, N]⟩ : Shape).Idx → EReal) (zT : (⟨2, ![N, B]⟩ : Shape).Idx → EReal)
    (hz : ∀ i, z i = 0) (hzT : ∀ i, zT i = 0)
    (sIdx dIdx : IVec ⟨2, ![n, 1]⟩ w)
    (hs : ∀ e : Fin n, 0 ≤ (sIdx (ix2 e (0 : Fin 1))).toInt ∧ (sIdx (ix2 e (0 : Fin 1))).toInt < N)
    (hd : ∀ e : Fin n, 0 ≤ (dIdx (ix2 e (0 : Fin 1))).toInt ∧ (dIdx (ix2 e (0 : Fin 1))).toInt < N)
    (f nf : (⟨2, ![B, n]⟩ : Shape).Idx → EReal) (fT : (⟨2, ![n, B]⟩ : Shape).Idx → EReal)
    (hnf : ∀ i, nf i = -(f i))
    (hfT : ∀ (b : Fin B) (e : Fin n), fT (ix2 e b) = f (ix2 b e))
    (hf : ∀ i, ∃ r : ℝ, f i = (r : EReal))
    (b : Fin B) (k : Fin N) :
    Ideal.hostScatterAdd dK (Ideal.hostScatterAdd dK z sIdx f) dIdx nf (ix2 b k)
      = Ideal.hostScatterAdd dR zT sIdx fT (ix2 k b) - Ideal.hostScatterAdd dR zT dIdx fT (ix2 k b) := by
  -- real witnesses for the entries of f
  choose r hr using hf
  -- both sides read entry by entry: the table's entry plus the sum of the updates over the words naming column k
  rw [scatterAdd_cols_apply hN dK huwK hiwK hsdK hivdK (Ideal.hostScatterAdd dK z sIdx f) dIdx nf hd b k,
    scatterAdd_cols_apply hN dK huwK hiwK hsdK hivdK z sIdx f hs b k,
    scatterAdd_rows_apply hN dR huwR hiwR hsdR hivdR zT sIdx fT hs k b,
    scatterAdd_rows_apply hN dR huwR hiwR hsdR hivdR zT dIdx fT hd k b]
  simp only [hz, hzT, hnf, hfT, hr]
  -- every term is the image of a real number: move the embedding of the reals outwards
  rw [← EReal.coe_zero]
  simp only [← EReal.coe_neg, ← IdealFinite.coe_finset_sum, ← EReal.coe_add, ← EReal.coe_sub]
  -- an identity of real numbers: a sum of negated terms is the negated sum
  congr 1
  rw [Finset.sum_neg_distrib]
  ring

end GatherScatter

end
-- ==== Proof.Bridge.lean ====
/-
  The kernel's pieces against the reference's stages, at the ideal reading of floats, when every word of the edge
  list names a node and the node heads and edge attributes are real numbers.

  • With every word in [0, 100000) the negative-index wrap does nothing and the take's range test is 1
    everywhere, so the kernel's take is the plain gather, which is what the reference gathers.
  • The flows then agree entry by entry: conductance of the edge times the difference of the two gathered heads.
  • The kernel scatters +flows at the source words and then -flows at the destination words into one table; the
    reference scatters the transposed flows twice from zeros and subtracts. The flows being real numbers, both are,
    at node k, the sum of the flows of the edges leaving k minus the sum of those entering k.
  • From the net flows on, and for the boundary loss, the two programs apply the same operations.
-/
import proofs.«408504_j58909771432751_3_alg».proof.Proof.KernelPieces
import proofs.«408504_j58909771432751_3_alg».proof.Proof.Gen.ReferenceIdeal.Read
import proofs.«408504_j58909771432751_3_alg».proof.Proof.LibIndexWords
import proofs.«408504_j58909771432751_3_alg».proof.Proof.LibScatterPair
import Idealize.ShloMosaic.Lib.StableHlo.Predicate
import Idealize.ShloMosaic.Lib.Pipeline.Value
import Idealize.ShloMosaic.Lib.ValueIdx

noncomputable section

namespace Cert.Bridge

open Idealize.ShloMosaic Idealize.ShloMosaic.ValueIdx Idealize.ShloMosaic.StableHlo.Predicate
open Cert.KernelIdeal.RunValue
open Cert.ReferenceIdeal (S8x100000 S2x3200000 S3200000x2 S16 S3200000 S3200000x1 S8x3200000 S1x3200000 S100000x8 S3200000x8 S_)
open Cert.ReferenceIdeal.Read

variable (x0 x1 : FVec Ideal S8x100000 .f32) (x2 : IVec S2x3200000 32) (x3 : FVec Ideal S3200000x2 .f32) (x4 : IVec S16 32)

/-! ## The words -/

theorem srcWords_eq : srcWords x2 = val_main_v1 (F := Ideal) x2 := rfl
theorem dstWords_eq : dstWords x2 = val_main_v3 (F := Ideal) x2 := rfl

/-- A word of the source row is a word of the edge list. -/
theorem src_range (hr : ∀ i, 0 ≤ (x2 i).toInt ∧ (x2 i).toInt < 100000) (i : S3200000.Idx) :
    0 ≤ (srcWords x2 i).toInt ∧ (srcWords x2 i).toInt < 100000 := by
  rw [srcWords_eq, val_main_v1_apply, val_main_v0_apply]
  exact hr _

/-- A word of the destination row is a word of the edge list. -/
theorem dst_range (hr : ∀ i, 0 ≤ (x2 i).toInt ∧ (x2 i).toInt < 100000) (i : S3200000.Idx) :
    0 ≤ (dstWords x2 i).toInt ∧ (dstWords x2 i).toInt < 100000 := by
  rw [dstWords_eq, val_main_v3_apply, val_main_v2_apply]
  exact hr _

/-- On words that are not negative the wrap is the identity. -/
theorem wrap_id (v : IVec S3200000 32) (hv : ∀ i, 0 ≤ (v i).toInt) : wrapWords v = v := by
  unfold wrapWords
  exact IndexWords.select_slt_zero v _ _ (fun i => by rw [bcast_scalar _ (by decide)]; rfl) hv

/-- The words kept as a column: entry (e, 0) is word e. -/
theorem colWords_apply (v : IVec S3200000 32) (e : Fin 3200000) :
    colWords v (ix2 e (0 : Fin 1)) = v (ix1 e) := by
  unfold colWords
  exact broadcastInDim_apply _ _ v (ix2 e (0 : Fin 1)) (ix1 e) (fun a => match a with
    | ⟨0, _⟩ => by show e.val = if (3200000 : Nat) = 1 then 0 else e.val; rw [if_neg (by decide)])

/-- So a column of words in range is in range at every entry. -/
theorem col_range (v : IVec S3200000 32) (hv : ∀ i, 0 ≤ (v i).toInt ∧ (v i).toInt < 100000) (i : S3200000x1.Idx) :
    0 ≤ (colWords v i).toInt ∧ (colWords v i).toInt < 100000 := by
  obtain ⟨e, z, rfl⟩ : ∃ (e : Fin 3200000) (z : Fin 1), i = ix2 e z := ⟨i 0, i 1, eq_ix2 i⟩
  obtain rfl : z = 0 := Subsingleton.elim _ _
  rw [colWords_apply]
  exact hv _

/-- With every word in range the take's range test is 1 everywhere. -/
theorem inBounds_one (v : IVec S3200000 32) (hv : ∀ i, 0 ≤ (v i).toInt ∧ (v i).toInt < 100000) :
    inBounds (colWords v) = fun _ => 1#1 := by
  unfold inBounds
  refine IndexWords.reduce_andi_of_all_one _ _ _ _ (fun i => ?_) (fun i => rfl)
  refine IndexWords.inRange_all_one (colWords v) _ _ (fun j => ?_) (fun j => ?_) (col_range v hv) i
  · rw [bcast_scalar _ (by decide)]; rfl
  · rw [broadcastInDim_apply _ _ _ j (ix2 (0 : Fin 1) (0 : Fin 1)) (fun a => match a with
      | ⟨0, _⟩ => rfl
      | ⟨1, _⟩ => rfl)]
    rfl

/-- So the kernel's take at words in range is the plain gather at those words. -/
theorem takeCols_eq (v : IVec S3200000 32) (hv : ∀ i, 0 ≤ (v i).toInt ∧ (v i).toInt < 100000) :
    takeCols x0 v = Host.gather Cert.KernelIdeal.gather_S8x100000_S3200000x1_S8x3200000_0_1_n_n_1_1_81 x0 (colWords v) := by
  unfold takeCols
  rw [wrap_id v (fun i => (hv i).1)]
  refine IndexWords.select_all_one _ (fun i => ?_) _ _
  rw [inBounds_one v hv]
  exact broadcastInDim_apply _ _ (fun _ => 1#1) i (ix1 (i 1)) (fun a => match a with
    | ⟨0, _⟩ => by show (i 1).val = if (3200000 : Nat) = 1 then 0 else (i 1).val; rw [if_neg (by decide)])

/-! ## The flows -/

/-- The conductance row at (0, e) is the conductance of edge e. -/
theorem condRow_apply (e : Fin 3200000) :
    condRow x3 (ix2 (0 : Fin 1) e) = val_main_v5 (F := Ideal) x3 (ix1 e) := by
  unfold condRow
  exact shapeCast_apply _ _ (ix2 (0 : Fin 1) e) (ix1 e) (by
    rewrite [Shape.rowMajor_val_one, Shape.rowMajor_val_two]
    show e.val = 0 * 3200000 + e.val
    omega)

/-- The reference's row of conductances laid along the batch rows reads, at (b, e), the conductance of edge e. -/
theorem v22_apply (b : Fin 8) (e : Fin 3200000) :
    val_main_v22 (F := Ideal) x3 (ix2 b e) = val_main_v5 (F := Ideal) x3 (ix1 e) := by
  rw [val_main_v22_apply, val_main_v21_apply]
  exact congrArg _ (funext fun a => match a with | ⟨0, _⟩ => rfl)

/-- The reference's source gather is the kernel's gather at the source words (its wrap does nothing either). -/
theorem v12_eq (hr : ∀ i, 0 ≤ (x2 i).toInt ∧ (x2 i).toInt < 100000) :
    val_main_v12 (F := Ideal) x0 x2
      = Host.gather Cert.KernelIdeal.gather_S8x100000_S3200000x1_S8x3200000_0_1_n_n_1_1_81 x0 (colWords (srcWords x2)) := by
  have w : val_main_v10 (F := Ideal) x2 = srcWords x2 :=
    (show val_main_v10 (F := Ideal) x2 = wrapWords (srcWords x2) from rfl).trans
      (wrap_id _ (fun i => (src_range x2 hr i).1))
  unfold val_main_v12 val_main_v11
  rw [w]
  rfl

/-- Likewise at the destination words. -/
theorem v19_eq (hr : ∀ i, 0 ≤ (x2 i).toInt ∧ (x2 i).toInt < 100000) :
    val_main_v19 (F := Ideal) x0 x2
      = Host.gather Cert.KernelIdeal.gather_S8x100000_S3200000x1_S8x3200000_0_1_n_n_1_1_81 x0 (colWords (dstWords x2)) := by
  have w : val_main_v17 (F := Ideal) x2 = dstWords x2 :=
    (show val_main_v17 (F := Ideal) x2 = wrapWords (dstWords x2) from rfl).trans
      (wrap_id _ (fun i => (dst_range x2 hr i).1))
  unfold val_main_v19 val_main_v18
  rw [w]
  rfl

/-- THE FLOWS: the kernel's, from its takes and its conductance row, are the reference's. -/
theorem flows_eq (hr : ∀ i, 0 ≤ (x2 i).toInt ∧ (x2 i).toInt < 100000) :
    flowsOf (F := Ideal) (takeCols x0 (srcWords x2)) (takeCols x0 (dstWords x2)) (condRow x3)
      = val_main_v23 (F := Ideal) x0 x2 x3 := by
  rw [takeCols_eq x0 _ (src_range x2 hr), takeCols_eq x0 _ (dst_range x2 hr)]
  funext i
  obtain ⟨b, e, rfl⟩ : ∃ (b : Fin 8) (e : Fin 3200000), i = ix2 b e := ⟨i 0, i 1, eq_ix2 i⟩
  rw [val_main_v23_apply, val_main_v20_apply, v22_apply, v12_eq x0 x2 hr, v19_eq x0 x2 hr]
  unfold flowsOf
  show FloatOps.mulf (condRow x3 (ix2 (0 : Fin 1) e)) _ = _
  rw [condRow_apply]

/-- The reference's flows are real numbers. -/
theorem flows_fin (h0 : IdealFinite.AllFin x0) (h3 : IdealFinite.AllFin x3) :
    IdealFinite.AllFin (val_main_v23 (F := Ideal) x0 x2 x3) := by
  have h5 : IdealFinite.AllFin (val_main_v5 (F := Ideal) x3) := fun i => by
    rw [val_main_v5_apply, val_main_v4_apply]; exact h3 _
  unfold val_main_v23 val_main_v22 val_main_v21 val_main_v20 val_main_v12 val_main_v19
  exact IdealFinite.AllFin.mulf (IdealFinite.AllFin.broadcastInDim (IdealFinite.AllFin.broadcastInDim h5))
    (IdealFinite.AllFin.subf (IdealFinite.AllFin.gather h0) (IdealFinite.AllFin.gather h0))

/-! ## The net flows -/

/-- The binary32 zero pattern is the real number zero. -/
theorem zero_f32 : Ideal.ofBits .f32 0x00000000#32 = 0 := by
  rw [IdealFinite.ofBits_00000000]; rfl

/-- The reference's column of source words is the kernel's. -/
theorem v26_eq : val_main_v26 (F := Ideal) x2 = colWords (srcWords x2) := rfl

/-- The reference's column of destination words is the kernel's. -/
theorem v29_eq : val_main_v29 (F := Ideal) x2 = colWords (dstWords x2) := rfl

/-- The kernel's table of zeros is zero everywhere. -/
theorem zerosK_apply (i : Cert.KernelIdeal.S8x100000.Idx) :
    broadcastInDim Cert.KernelIdeal.S8x100000 ![] Cert.KernelIdeal.Gen.bcast_S_S8x100000
      (constant (F := Ideal) Cert.KernelIdeal.S_ .f32 0x00000000#32) i = 0 := by
  rw [bcast_scalar _ (by decide)]; exact zero_f32

/-- The reference's table of zeros is zero everywhere. -/
theorem zerosR_apply (i : S100000x8.Idx) : val_main_v25 (F := Ideal) i = 0 := by
  rw [val_main_v25_apply]; exact zero_f32

/-- The source words as a column are node numbers. -/
theorem srcCol_range (hr : ∀ i, 0 ≤ (x2 i).toInt ∧ (x2 i).toInt < 100000) (e : Fin 3200000) :
    0 ≤ (colWords (srcWords x2) (ix2 e (0 : Fin 1))).toInt
      ∧ (colWords (srcWords x2) (ix2 e (0 : Fin 1))).toInt < ((100000 : ℕ) : ℤ) := by
  have := col_range _ (src_range x2 hr) (ix2 e (0 : Fin 1)); omega

/-- The destination words as a column are node numbers. -/
theorem dstCol_range (hr : ∀ i, 0 ≤ (x2 i).toInt ∧ (x2 i).toInt < 100000) (e : Fin 3200000) :
    0 ≤ (colWords (dstWords x2) (ix2 e (0 : Fin 1))).toInt
      ∧ (colWords (dstWords x2) (ix2 e (0 : Fin 1))).toInt < ((100000 : ℕ) : ℤ) := by
  have := col_range _ (dst_range x2 hr) (ix2 e (0 : Fin 1)); omega

/-- The transposed flows at (e, b) are the flows at (b, e). -/
theorem flowsT_apply (b : Fin 8) (e : Fin 3200000) :
    val_main_v24 (F := Ideal) x0 x2 x3 (ix2 e b) = val_main_v23 (F := Ideal) x0 x2 x3 (ix2 b e) := by
  rw [val_main_v24_apply]
  exact congrArg _ (funext fun a => match a with | ⟨0, _⟩ => rfl | ⟨1, _⟩ => rfl)

/-- The two ways of accumulating net flows, for tables and lists of ANY sizes, in the programs' own spelling:
    +f scattered at the words `sIdx` and then -f at the words `dIdx` into one table of zeros, against the
    difference of the two single scatters of the transposed f, each from its own table of zeros. -/
theorem pair_host {B N n w : Nat} (hN : 0 < N)
    (dK : ScatterDims ⟨2, ![B, N]⟩ ⟨2, ![n, 1]⟩ ⟨2, ![B, n]⟩)
    (huwK : dK.updateWindowDims = [0]) (hiwK : dK.insertedWindowDims = [1]) (hsdK : dK.scatterDimsToOperandDims = [1])
    (hivdK : dK.indexVectorDim = 1)
    (dR : ScatterDims ⟨2, ![N, B]⟩ ⟨2, ![n, 1]⟩ ⟨2, ![n, B]⟩)
    (huwR : dR.updateWindowDims = [1]) (hiwR : dR.insertedWindowDims = [0]) (hsdR : dR.scatterDimsToOperandDims = [0])
    (hivdR : dR.indexVectorDim = 1)
    (z : FVec Ideal ⟨2, ![B, N]⟩ .f32) (zT zT' : FVec Ideal ⟨2, ![N, B]⟩ .f32)
    (hz : ∀ i, (z i : EReal) = 0) (hzT : ∀ i, (zT i : EReal) = 0) (hzT' : ∀ i, (zT' i : EReal) = 0)
    (sIdx dIdx : IVec ⟨2, ![n, 1]⟩ w)
    (hs : ∀ e : Fin n, 0 ≤ (sIdx (ix2 e (0 : Fin 1))).toInt ∧ (sIdx (ix2 e (0 : Fin 1))).toInt < N)
    (hd : ∀ e : Fin n, 0 ≤ (dIdx (ix2 e (0 : Fin 1))).toInt ∧ (dIdx (ix2 e (0 : Fin 1))).toInt < N)
    (f : FVec Ideal ⟨2, ![B, n]⟩ .f32) (fT : FVec Ideal ⟨2, ![n, B]⟩ .f32)
    (hfT : ∀ (b : Fin B) (e : Fin n), fT (ix2 e b) = f (ix2 b e))
    (hf : ∀ i, ∃ r : ℝ, (f i : EReal) = (r : EReal))
    (b : Fin B) (k : Fin N) :
    Host.scatterAdd (F := Ideal) dK (Host.scatterAdd (F := Ideal) dK z sIdx f) dIdx (Host.negf (F := Ideal) f) (ix2 b k)
      = FloatOps.subf (F := Ideal) (φ := .f32) (Host.scatterAdd (F := Ideal) dR zT sIdx fT (ix2 k b))
          (Host.scatterAdd (F := Ideal) dR zT' dIdx fT (ix2 k b)) := by
  have e : zT' = zT := funext fun i => (hzT' i).trans (hzT i).symm
  rw [e]
  exact GatherScatter.scatter_pm_eq_sub hN dK huwK hiwK hsdK hivdK dR huwR hiwR hsdR hivdR z zT hz hzT sIdx dIdx hs hd
    f (Host.negf (F := Ideal) f) fT (fun i => rfl) hfT hf b k

/-- The reference's second table of zeros is zero everywhere. -/
theorem zerosR'_apply (i : S100000x8.Idx) : val_main_v28 (F := Ideal) i = 0 := by
  rw [val_main_v28_apply]; exact zero_f32

/-- THE NET FLOWS: +flows at the sources then -flows at the destinations, in one table, is the transposed
    difference of the two single scatters of the transposed flows. -/
theorem net_eq (h0 : IdealFinite.AllFin x0) (h3 : IdealFinite.AllFin x3)
    (hr : ∀ i, 0 ≤ (x2 i).toInt ∧ (x2 i).toInt < 100000) :
    netFlows (F := Ideal) (val_main_v23 (F := Ideal) x0 x2 x3) (srcWords x2) (dstWords x2)
      = val_main_v32 (F := Ideal) x0 x2 x3 := by
  funext i
  obtain ⟨b, k, rfl⟩ : ∃ (b : Fin 8) (k : Fin 100000), i = ix2 b k := ⟨i 0, i 1, eq_ix2 i⟩
  rw [val_main_v32_apply, val_main_v31_apply]
  have hidx : idx_main_v32 (ix2 b k) = ix2 k b := by
    funext a
    match a with
    | ⟨0, _⟩ => rfl
    | ⟨1, _⟩ => rfl
  rw [hidx]
  unfold netFlows
  rw [wrap_id _ (fun i => (src_range x2 hr i).1), wrap_id _ (fun i => (dst_range x2 hr i).1)]
  unfold val_main_v27 val_main_v30
  rw [v26_eq, v29_eq]
  exact pair_host (B := 8) (N := 100000) (n := 3200000) (w := 32) (Nat.succ_pos _)
    Cert.KernelIdeal.scatter_S8x100000_S3200000x1_S8x3200000_0_1_1_1 rfl rfl rfl rfl
    Cert.ReferenceIdeal.scatter_S100000x8_S3200000x1_S3200000x8_1_0_0_1 rfl rfl rfl rfl
    _ _ _ zerosK_apply zerosR_apply zerosR'_apply _ _ (srcCol_range x2 hr) (dstCol_range x2 hr)
    _ _ (flowsT_apply x0 x2 x3) (flows_fin x0 x2 x3 h0 h3) b k

/-! ## The three losses -/

/-- From the net flows on, the continuity loss is the same operations. -/
theorem contLoss_eq (net : FVec Ideal S8x100000 .f32) (hnet : net = val_main_v32 (F := Ideal) x0 x2 x3) :
    contLoss (F := Ideal) net x1 = val_main_v36 (F := Ideal) x0 x1 x2 x3 := by
  subst hnet
  rfl

/-- The boundary loss is the same operations of the same arguments. -/
theorem bndLoss_eq : bndLoss (F := Ideal) x0 x4 = val_main_v48 (F := Ideal) x0 x4 := rfl

/-- The total is the same operations of the two losses. -/
theorem totalLoss_eq (a b : FVec Ideal S_ .f32) (ha : a = val_main_v36 (F := Ideal) x0 x1 x2 x3)
    (hb : b = val_main_v48 (F := Ideal) x0 x4) :
    totalLoss (F := Ideal) a b = val_main_v50 (F := Ideal) x0 x1 x2 x3 x4 := by
  subst ha hb
  rfl

/-! ## All four results -/

/-- Under the decoded precondition the kernel's four results, as functions of the argument arrays, are the
    reference's stages of the same arrays. -/
theorem results (h0 : IdealFinite.AllFin x0) (h3 : IdealFinite.AllFin x3)
    (hr : ∀ i, 0 ≤ (x2 i).toInt ∧ (x2 i).toInt < 100000) :
    contLoss (F := Ideal) (netFlows (flowsArr x0 x2 x3) (srcWords x2) (dstWords x2)) x1
        = val_main_v36 (F := Ideal) x0 x1 x2 x3
      ∧ bndLoss (F := Ideal) x0 x4 = val_main_v48 (F := Ideal) x0 x4
      ∧ totalLoss (F := Ideal) (contLoss (netFlows (flowsArr x0 x2 x3) (srcWords x2) (dstWords x2)) x1) (bndLoss x0 x4)
        = val_main_v50 (F := Ideal) x0 x1 x2 x3 x4
      ∧ flowsArr (F := Ideal) x0 x2 x3 = val_main_v23 (F := Ideal) x0 x2 x3 := by
  have hfl : flowsArr (F := Ideal) x0 x2 x3 = val_main_v23 (F := Ideal) x0 x2 x3 := flows_eq x0 x2 x3 hr
  have hnet : netFlows (F := Ideal) (flowsArr x0 x2 x3) (srcWords x2) (dstWords x2) = val_main_v32 (F := Ideal) x0 x2 x3 := by
    rw [hfl]; exact net_eq x0 x2 x3 h0 h3 hr
  have hc := contLoss_eq x0 x1 x2 x3 _ hnet
  exact ⟨hc, bndLoss_eq x0 x4, totalLoss_eq x0 x1 x2 x3 x4 _ _ hc (bndLoss_eq x0 x4), hfl⟩

end Cert.Bridge

end
-- ==== Proof.lean ====
/-
  The certificate of the pipe-network physics loss: a kernel that gathers node heads at the two ends of every edge,
  forms the flows conductance · (head at the source - head at the destination) in a pipelined elementwise region,
  scatters them into net flows per node and takes three mean-square losses, against the plain reference that
  computes the same flows, the net flows as a difference of two segment sums, and the same losses.

  The statement carries, beside finiteness of the float inputs, that every word of the edge list is a node number
  (in [0, 100000)): outside that range the two programs index differently. Under it the kernel's take is the plain
  gather (its wrap and its range mask do nothing), the flows agree entry by entry, and the two ways of accumulating
  the net flows agree because the flows are real numbers: at node k both are the sum of the flows of the edges
  leaving k minus the sum of those entering k. The losses are then the same operations of equal arrays.

  The three frames: the kernel's two programs by their generated frame proofs; the reference's from its generated run.
  The idealization rewrote nothing, so `preserves` asks nothing.
-/
import proofs.«408504_j58909771432751_3_alg».proof.Defs
import proofs.«408504_j58909771432751_3_alg».proof.Proof.Gen.Kernel
import proofs.«408504_j58909771432751_3_alg».proof.Proof.Gen.Kernel.Skeleton
import proofs.«408504_j58909771432751_3_alg».proof.Proof.Gen.Kernel.Launch
import proofs.«408504_j58909771432751_3_alg».proof.Proof.Gen.Kernel.Points
import proofs.«408504_j58909771432751_3_alg».proof.Proof.Gen.Kernel.Frame
import proofs.«408504_j58909771432751_3_alg».proof.Proof.Gen.KernelIdeal
import proofs.«408504_j58909771432751_3_alg».proof.Proof.Gen.KernelIdeal.Skeleton
import proofs.«408504_j58909771432751_3_alg».proof.Proof.Gen.KernelIdeal.Launch
import proofs.«408504_j58909771432751_3_alg».proof.Proof.Gen.KernelIdeal.Points
import proofs.«408504_j58909771432751_3_alg».proof.Proof.Gen.KernelIdeal.Frame
import proofs.«408504_j58909771432751_3_alg».proof.Proof.Gen.ReferenceIdeal
import proofs.«408504_j58909771432751_3_alg».proof.Proof.Gen.Pre_finite_inputs
import proofs.«408504_j58909771432751_3_alg».proof.Proof.Gen.ReferenceIdeal.Run
import proofs.«408504_j58909771432751_3_alg».proof.Proof.Gen.ReferenceIdeal.Read
import proofs.«408504_j58909771432751_3_alg».proof.Proof.PreFacts
import proofs.«408504_j58909771432751_3_alg».proof.Proof.KernelValue
import proofs.«408504_j58909771432751_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- Both programs run; each result of the kernel is the reference's stage of the same name's arguments. -/
theorem algebraic : Cert.algebraic_KernelIdeal_ReferenceIdeal := by
  intro m ρ m' ρ' hpre hagree
  refine ⟨fun c => Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    fun c => Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.RunValue.run (F := Ideal) m ρ)
    obtain ⟨hf0, -, hf3, hr⟩ := Cert.PreFacts.decode _ _ _ _ _ (hpre c)
    obtain ⟨e29, e41, e43, e9, ea0, ea1, ea2, ea3, ea4⟩ := h c
    obtain ⟨r36, r48, r50, r23⟩ := Cert.Bridge.results (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) hf0 hf3 hr
    exact ⟨e29.trans r36, e41.trans r48, e43.trans r50, e9.trans r23, ea0, ea1, ea2, ea3, ea4⟩
  · refine (θ_run Cert.ReferenceIdeal.defs _ _).mono (fun r h c => ?_) (Cert.ReferenceIdeal.Value.run (F := Ideal) m' ρ')
    obtain ⟨e36, e48, e50, e23, b0, b1, b2, b3, b4⟩ := h c
    obtain ⟨g0, g1, g2, g3, g4⟩ := hagree c
    refine ⟨?_, ?_, ?_, ?_, b0, b1, b2, b3, b4⟩
    · rw [e36, Cert.ReferenceIdeal.Read.val_main_v36_eq, g0, g1, g2, g3]
    · rw [e48, Cert.ReferenceIdeal.Read.val_main_v48_eq, g0, g4]
    · rw [e50, Cert.ReferenceIdeal.Read.val_main_v50_eq, g0, g1, g2, g3, g4]
    · rw [e23, Cert.ReferenceIdeal.Read.val_main_v23_eq, g0, g2, g3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
